-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000x10 : Shape := ⟨2, ![800000, 10]⟩
abbrev S800000 : Shape := ⟨1, ![800000]⟩
abbrev S2x800000 : Shape := ⟨2, ![2, 800000]⟩
abbrev S202x256 : Shape := ⟨2, ![202, 256]⟩
abbrev S256 : Shape := ⟨1, ![256]⟩
abbrev S256x64 : Shape := ⟨2, ![256, 64]⟩
abbrev S64 : Shape := ⟨1, ![64]⟩
abbrev S128x256 : Shape := ⟨2, ![128, 256]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S800000x10 : S_.BroadcastsInDim S800000x10 (![] : Fin 0 → Fin S800000x10.rank)
  reducesTo_S800000x10_S_d0_1 : S800000x10.ReducesTo [0, 1] S_
  bcast_S_S800000 : S_.BroadcastsInDim S800000 (![] : Fin 0 → Fin S800000.rank)
  reducesTo_S800000_S_d0 : S800000.ReducesTo [0] S_
  bcast_S_S202x256 : S_.BroadcastsInDim S202x256 (![] : Fin 0 → Fin S202x256.rank)
  reducesTo_S202x256_S_d0_1 : S202x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S128x256 : S_.BroadcastsInDim S128x256 (![] : Fin 0 → Fin S128x256.rank)
  reducesTo_S128x256_S_d0_1 : S128x256.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_arg4 : IVec S2x800000 32) (main_arg12 : FVec F S64 .f32) (main_v48 : IVec S_ 1) (main_v49 : FVec F S256x64 .f32) (main_v50 : FVec F S256x64 .f32) : IVec S_ 1 :=
  let main_v51 : IVec S256x64 1 := cmpf .olt main_v49 main_v50
  let main_c_19 : IVec S_ 1 := constantI S_ 1 1#1
  let main_v52 : IVec S_ 1 := (fun x v => Host.reduce IntOp.andi x v reducesTo_S256x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_c_22 : IVec S_ 32 := constantI S_ 32 0#32
  let main_v59 : IVec S2x800000 32 := broadcastInDim S2x800000 ![] bcast_S_S2x800000 main_c_22
  let main_v60 : IVec S2x800000 1 := cmpi .sge main_arg4 main_v59
  let main_c_23 : IVec S_ 32 := constantI S_ 32 50000#32
  let main_v61 : IVec S2x800000 32 := broadcastInDim S2x800000 ![] bcast_S_S2x800000 main_c_23
  let main_v62 : IVec S2x800000 1 := cmpi .slt main_arg4 main_v61
  let main_v63 : IVec S2x800000 1 := andi main_v60 main_v62
  let main_c_24 : IVec S_ 1 := constantI S_ 1 1#1
  let main_v64 : IVec S_ 1 := (fun x v => Host.reduce IntOp.andi x v reducesTo_S2x800000_S_d0_1 h_S_) main_v63 main_c_24
  let main_v65 : IVec S_ 1 := andi main_v58 main_v64
  main_v65

def fn_part2 {F : FTy → Type} [FloatOps F] (main_arg4 : IVec S2x800000 32) (main_arg8 : FVec F S64 .f32) (main_arg9 : FVec F S128x256 .f32) (main_arg10 : FVec F S256 .f32) (main_arg11 : FVec F S256x64 .f32) (main_arg12 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x256 .f32 := Host.absf main_arg9
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x64 .f32 := Host.absf main_arg11
  let main_cst_18 : FVec F S_ .f32 := constant S_ .f32 0x7F800000#32
  let main_v50 : FVec F S256x64 .f32 := broadcastInDim S256x64 ![] bcast_S_S256x64 main_cst_18
  fn_part3 (F := F) main_arg4 main_arg12 main_v48 main_v49 main_v50

def fn_part1 {F : FTy → Type} [FloatOps F] (main_arg4 : IVec S2x800000 32) (main_arg5 : FVec F S202x256 .f32) (main_arg6 : FVec F S256 .f32) (main_arg7 : FVec F S256x64 .f32) (main_arg8 : FVec F S64 .f32) (main_arg9 : FVec F S128x256 .f32) (main_arg10 : FVec F S256 .f32) (main_arg11 : FVec F S256x64 .f32) (main_arg12 : FVec F S64 .f32) (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  let main_v19 : FVec F S202x256 .f32 := Host.absf main_arg5
  let main_cst_6 : FVec F S_ .f32 := constant S_ .f32 0x7F800000#32
  let main_v20 : FVec F S202x256 .f32 := broadcastInDim S202x256 ![] bcast_S_S202x256 main_cst_6
  let main_v21 : IVec S202x256 1 := cmpf .olt main_v19 main_v20
  let main_c_7 : IVec S_ 1 := constantI S_ 1 1#1
  let main_v22 : IVec S_ 1 := (fun x v => Host.reduce IntOp.andi x v reducesTo_S202x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x64 .f32 := Host.absf main_arg7
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg4 main_arg8 main_arg9 main_arg10 main_arg11 main_arg12 main_v33

def fn {F : FTy → Type} [FloatOps F] (main_arg0 : FVec F S50000x64 .f32) (main_arg1 : FVec F S800000x64 .f32) (main_arg2 : FVec F S800000x10 .f32) (main_arg3 : FVec F S800000 .f32) (main_arg4 : IVec S2x800000 32) (main_arg5 : FVec F S202x256 .f32) (main_arg6 : FVec F S256 .f32) (main_arg7 : FVec F S256x64 .f32) (main_arg8 : FVec F S64 .f32) (main_arg9 : FVec F S128x256 .f32) (main_arg10 : FVec F S256 .f32) (main_arg11 : FVec F S256x64 .f32) (main_arg12 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S800000x10 .f32 := Host.absf main_arg2
  let main_cst_2 : FVec F S_ .f32 := constant S_ .f32 0x7F800000#32
  let main_v10 : FVec F S800000x10 .f32 := broadcastInDim S800000x10 ![] bcast_S_S800000x10 main_cst_2
  let main_v11 : IVec S800000x10 1 := cmpf .olt main_v9 main_v10
  let main_c_3 : IVec S_ 1 := constantI S_ 1 1#1
  let main_v12 : IVec S_ 1 := (fun x v => Host.reduce IntOp.andi x v reducesTo_S800000x10_S_d0_1 h_S_) main_v11 main_c_3
  let main_v13 : IVec S_ 1 := andi main_v8 main_v12
  let main_v14 : FVec F S800000 .f32 := Host.absf main_arg3
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_arg4 main_arg5 main_arg6 main_arg7 main_arg8 main_arg9 main_arg10 main_arg11 main_arg12 main_v13 main_v16
-- ==== Kernel.lean ====
abbrev S50000x64 : Shape := ⟨2, ![50000, 64]⟩
abbrev S800000x64 : Shape := ⟨2, ![800000, 64]⟩
abbrev S800000x10 : Shape := ⟨2, ![800000, 10]⟩
abbrev S800000 : Shape := ⟨1, ![800000]⟩
abbrev S2x800000 : Shape := ⟨2, ![2, 800000]⟩
abbrev S202x256 : Shape := ⟨2, ![202, 256]⟩
abbrev S256 : Shape := ⟨1, ![256]⟩
abbrev S256x64 : Shape := ⟨2, ![256, 64]⟩
abbrev S64 : Shape := ⟨1, ![64]⟩
abbrev S128x256 : Shape := ⟨2, ![128, 256]⟩
abbrev S1x800000 : Shape := ⟨2, ![1, 800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S64x256 : Shape := ⟨2, ![64, 256]⟩
abbrev S10x256 : Shape := ⟨2, ![10, 256]⟩
abbrev S1x256 : Shape := ⟨2, ![1, 256]⟩
abbrev S1x64 : Shape := ⟨2, ![1, 64]⟩
abbrev S5000x64 : Shape := ⟨2, ![5000, 64]⟩
abbrev S5000x10 : Shape := ⟨2, ![5000, 10]⟩
abbrev S5000x256 : Shape := ⟨2, ![5000, 256]⟩

abbrev nBuf : Space → Nat
  | .hbm => 82
  | .vmem => 28
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000x10, .f32⟩
  | .hbm, ⟨3, _⟩ => ⟨S800000, .f32⟩
  | .hbm, ⟨4, _⟩ => ⟨S2x800000, .i32⟩
  | .hbm, ⟨5, _⟩ => ⟨S202x256, .f32⟩
  | .hbm, ⟨6, _⟩ => ⟨S256, .f32⟩
  | .hbm, ⟨7, _⟩ => ⟨S256x64, .f32⟩
  | .hbm, ⟨8, _⟩ => ⟨S64, .f32⟩
  | .hbm, ⟨9, _⟩ => ⟨S128x256, .f32⟩
  | .hbm, ⟨10, _⟩ => ⟨S256, .f32⟩
  | .hbm, ⟨11, _⟩ => ⟨S256x64, .f32⟩
  | .hbm, ⟨12, _⟩ => ⟨S64, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S1, .i32⟩
  | .hbm, ⟨26, _⟩ => ⟨S_, .i32⟩
  | .hbm, ⟨27, _⟩ => ⟨S800000x1, .i32⟩
  | .hbm, ⟨28, _⟩ => ⟨S800000x1, .i1⟩
  | .hbm, ⟨29, _⟩ => ⟨S1x1, .i32⟩
  | .hbm, ⟨30, _⟩ => ⟨S800000x1, .i32⟩
  | .hbm, ⟨31, _⟩ => ⟨S800000x1, .i1⟩
  | .hbm, ⟨32, _⟩ => ⟨S800000x1, .i1⟩
  | .hbm, ⟨33, _⟩ => ⟨S_, .i1⟩
  | .hbm, ⟨34, _⟩ => ⟨S800000, .i1⟩
  | .hbm, ⟨35, _⟩ => ⟨S800000x64, .f32⟩
  | .hbm, ⟨36, _⟩ => ⟨S800000x64, .i1⟩
  | .hbm, ⟨37, _⟩ => ⟨S_, .f32⟩
  | .hbm, ⟨38, _⟩ => ⟨S800000x64, .f32⟩
  | .hbm, ⟨39, _⟩ => ⟨S800000x64, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S1, .i32⟩
  | .hbm, ⟨49, _⟩ => ⟨S_, .i32⟩
  | .hbm, ⟨50, _⟩ => ⟨S800000x1, .i32⟩
  | .hbm, ⟨51, _⟩ => ⟨S800000x1, .i1⟩
  | .hbm, ⟨52, _⟩ => ⟨S1x1, .i32⟩
  | .hbm, ⟨53, _⟩ => ⟨S800000x1, .i32⟩
  | .hbm, ⟨54, _⟩ => ⟨S800000x1, .i1⟩
  | .hbm, ⟨55, _⟩ => ⟨S800000x1, .i1⟩
  | .hbm, ⟨56, _⟩ => ⟨S_, .i1⟩
  | .hbm, ⟨57, _⟩ => ⟨S800000, .i1⟩
  | .hbm, ⟨58, _⟩ => ⟨S800000x64, .f32⟩
  | .hbm, ⟨59, _⟩ => ⟨S800000x64, .i1⟩
  | .hbm, ⟨60, _⟩ => ⟨S_, .f32⟩
  | .hbm, ⟨61, _⟩ => ⟨S800000x64, .f32⟩
  | .hbm, ⟨62, _⟩ => ⟨S800000x64, .f32⟩
  | .hbm, ⟨63, _⟩ => ⟨S64x256, .f32⟩
  | .hbm, ⟨64, _⟩ => ⟨S64x256, .f32⟩
  | .hbm, ⟨65, _⟩ => ⟨S64x256, .f32⟩
  | .hbm, ⟨66, _⟩ => ⟨S10x256, .f32⟩
  | .hbm, ⟨67, _⟩ => ⟨S1x256, .f32⟩
  | .hbm, ⟨68, _⟩ => ⟨S1x64, .f32⟩
  | .hbm, ⟨69, _⟩ => ⟨S800000x64, .f32⟩
  | .hbm, ⟨70, _⟩ => ⟨S800000x1, .f32⟩
  | .hbm, ⟨71, _⟩ => ⟨S800000x64, .f32⟩
  | .hbm, ⟨72, _⟩ => ⟨S800000x64, .f32⟩
  | .hbm, ⟨73, _⟩ => ⟨S_, .f32⟩
  | .hbm, ⟨74, _⟩ => ⟨S50000x64, .f32⟩
  | .hbm, ⟨75, _⟩ => ⟨S800000x1, .i32⟩
  | .hbm, ⟨76, _⟩ => ⟨S50000x64, .f32⟩
  | .hbm, ⟨77, _⟩ => ⟨S64x256, .f32⟩
  | .hbm, ⟨78, _⟩ => ⟨S64x256, .f32⟩
  | .hbm, ⟨79, _⟩ => ⟨S1x256, .f32⟩
  | .hbm, ⟨80, _⟩ => ⟨S1x64, .f32⟩
  | .hbm, ⟨81, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x10, .f32⟩
  | .local _ .vmem, ⟨7, _⟩ => ⟨S5000x10, .f32⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S10x256, .f32⟩
  | .local _ .vmem, ⟨12, _⟩ => ⟨S1x256, .f32⟩
  | .local _ .vmem, ⟨13, _⟩ => ⟨S256x64, .f32⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S64x256, .f32⟩
  | .local _ .vmem, ⟨22, _⟩ => ⟨S64x256, .f32⟩
  | .local _ .vmem, ⟨23, _⟩ => ⟨S1x256, .f32⟩
  | .local _ .vmem, ⟨24, _⟩ => ⟨S256x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_cst : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S202x256_S64x256_0_0 : S202x256.Slices ![0, 0] S64x256
  slices_S202x256_S64x256_64_0 : S202x256.Slices ![64, 0] S64x256
  slices_S202x256_S64x256_128_0 : S202x256.Slices ![128, 0] S64x256
  slices_S202x256_S10x256_192_0 : S202x256.Slices ![192, 0] S10x256
  shapeCasts_S256_S1x256 : S256.ShapeCasts S1x256
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x10_S5000x10_0_0 : ∀ a, (![0, 0] : Fin 2 → Nat) a + S5000x10.size a ≤ S5000x10.size a
  h_S5000x10 : 0 < S5000x10.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S10x256_S10x256_0_0 : ∀ a, (![0, 0] : Fin 2 → Nat) a + S10x256.size a ≤ S10x256.size a
  h_S10x256 : 0 < S10x256.numel
  shapeCasts_S10x256_S10x256 : S10x256.ShapeCasts S10x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S128x256_S64x256_0_0 : S128x256.Slices ![0, 0] S64x256
  slices_S128x256_S64x256_64_0 : S128x256.Slices ![64, 0] S64x256
  gather_S50000x64_S800000x1_S800000x64_1_0_n_n_0_1_164_wf : GatherDims.WF S50000x64 S800000x1 S800000x64 [1] [0] [] [0] [] 1 ![1, 64]
  dot_S5000x64_S64x256_S5000x256_1_0_0_1_n_n_wf : DotDims.WF S5000x64 S64x256 S5000x256 [1] [0] [0] [1] [] []
  dot_S5000x10_S10x256_S5000x256_1_0_0_1_n_n_wf : DotDims.WF S5000x10 S10x256 S5000x256 [1] [0] [0] [1] [] []
  dot_S5000x256_S256x64_S5000x64_1_0_0_1_n_n_wf : DotDims.WF S5000x256 S256x64 S5000x64 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S800000x64.size a
  hwx0_0 : ∀ i : grid0.Coords, EltTy.bits .f32 = 32 ∨ (Rect.block (s := S800000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S800000x64.size a
  hwx0_1 : ∀ i : grid0.Coords, EltTy.bits .f32 = 32 ∨ (Rect.block (s := S800000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S800000x64.size a
  hwx0_2 : ∀ i : grid0.Coords, EltTy.bits .f32 = 32 ∨ (Rect.block (s := S800000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x10.size a ≤ S800000x10.size a
  hwx0_3 : ∀ i : grid0.Coords, EltTy.bits .f32 = 32 ∨ (Rect.block (s := S800000x10) S5000x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x256.size a ≤ S64x256.size a
  hwx0_6 : ∀ i : grid0.Coords, EltTy.bits .f32 = 32 ∨ (Rect.block (s := S64x256) S64x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10x256.size a ≤ S10x256.size a
  hwx0_7 : ∀ i : grid0.Coords, EltTy.bits .f32 = 32 ∨ (Rect.block (s := S10x256) S10x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x64.size a ≤ S256x64.size a
  hwx0_9 : ∀ i : grid0.Coords, EltTy.bits .f32 = 32 ∨ (Rect.block (s := S256x64) S256x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x64.size a ≤ S800000x64.size a
  hwx0_11 : ∀ i : grid0.Coords, EltTy.bits .f32 = 32 ∨ (Rect.block (s := S800000x64) S5000x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x256.size a ≤ S64x256.size a
  hwx1_2 : ∀ i : grid1.Coords, EltTy.bits .f32 = 32 ∨ (Rect.block (s := S64x256) S64x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x256.size a ≤ S64x256.size a
  hwx1_3 : ∀ i : grid1.Coords, EltTy.bits .f32 = 32 ∨ (Rect.block (s := S64x256) S64x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x64.size a ≤ S256x64.size a
  hwx1_5 : ∀ i : grid1.Coords, EltTy.bits .f32 = 32 ∨ (Rect.block (s := S256x64) S256x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x10_S10x256_S5000x256_1_0_0_1_n_n : DotDims S5000x10 S10x256 S5000x256 where
  lhsContracting := [1]
  rhsContracting := [0]
  lhsNonContracting := [0]
  rhsNonContracting := [1]
  lhsBatch := []
  rhsBatch := []
  wf := dot_S5000x10_S10x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg1) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S5000x10.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S64x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S10x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S256x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S5000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S64x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S64x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S256x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000x10 : Shape := ⟨2, ![800000, 10]⟩
abbrev S800000 : Shape := ⟨1, ![800000]⟩
abbrev S2x800000 : Shape := ⟨2, ![2, 800000]⟩
abbrev S202x256 : Shape := ⟨2, ![202, 256]⟩
abbrev S256 : Shape := ⟨1, ![256]⟩
abbrev S256x64 : Shape := ⟨2, ![256, 64]⟩
abbrev S64 : Shape := ⟨1, ![64]⟩
abbrev S128x256 : Shape := ⟨2, ![128, 256]⟩
abbrev S1x800000 : Shape := ⟨2, ![1, 800000]⟩
abbrev S_ : Shape := ⟨0, ![]⟩
abbrev S800000x1 : Shape := ⟨2, ![800000, 1]⟩
abbrev S800000x202 : Shape := ⟨2, ![800000, 202]⟩
abbrev S800000x256 : Shape := ⟨2, ![800000, 256]⟩
abbrev S1x256 : Shape := ⟨2, ![1, 256]⟩
abbrev S1x64 : Shape := ⟨2, ![1, 64]⟩
abbrev S50000x128 : Shape := ⟨2, ![50000, 128]⟩
abbrev S50000x256 : Shape := ⟨2, ![50000, 256]⟩

abbrev nBuf : Space → Nat
  | .hbm => 68
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000x10, .f32⟩
  | .hbm, ⟨3, _⟩ => ⟨S800000, .f32⟩
  | .hbm, ⟨4, _⟩ => ⟨S2x800000, .i32⟩
  | .hbm, ⟨5, _⟩ => ⟨S202x256, .f32⟩
  | .hbm, ⟨6, _⟩ => ⟨S256, .f32⟩
  | .hbm, ⟨7, _⟩ => ⟨S256x64, .f32⟩
  | .hbm, ⟨8, _⟩ => ⟨S64, .f32⟩
  | .hbm, ⟨9, _⟩ => ⟨S128x256, .f32⟩
  | .hbm, ⟨10, _⟩ => ⟨S256, .f32⟩
  | .hbm, ⟨11, _⟩ => ⟨S256x64, .f32⟩
  | .hbm, ⟨12, _⟩ => ⟨S64, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x64, .f32⟩
  | .hbm, ⟨35, _⟩ => ⟨S800000x202, .f32⟩
  | .hbm, ⟨36, _⟩ => ⟨S800000x256, .f32⟩
  | .hbm, ⟨37, _⟩ => ⟨S1x256, .f32⟩
  | .hbm, ⟨38, _⟩ => ⟨S800000x256, .f32⟩
  | .hbm, ⟨39, _⟩ => ⟨S800000x256, .f32⟩
  | .hbm, ⟨40, _⟩ => ⟨S_, .f32⟩
  | .hbm, ⟨41, _⟩ => ⟨S800000x256, .f32⟩
  | .hbm, ⟨42, _⟩ => ⟨S800000x256, .f32⟩
  | .hbm, ⟨43, _⟩ => ⟨S800000x64, .f32⟩
  | .hbm, ⟨44, _⟩ => ⟨S800000x64, .f32⟩
  | .hbm, ⟨45, _⟩ => ⟨S1x64, .f32⟩
  | .hbm, ⟨46, _⟩ => ⟨S800000x64, .f32⟩
  | .hbm, ⟨47, _⟩ => ⟨S800000x64, .f32⟩
  | .hbm, ⟨48, _⟩ => ⟨S800000x1, .f32⟩
  | .hbm, ⟨49, _⟩ => ⟨S800000x64, .f32⟩
  | .hbm, ⟨50, _⟩ => ⟨S800000x64, .f32⟩
  | .hbm, ⟨51, _⟩ => ⟨S_, .f32⟩
  | .hbm, ⟨52, _⟩ => ⟨S50000x64, .f32⟩
  | .hbm, ⟨53, _⟩ => ⟨S800000x1, .i32⟩
  | .hbm, ⟨54, _⟩ => ⟨S50000x64, .f32⟩
  | .hbm, ⟨55, _⟩ => ⟨S50000x128, .f32⟩
  | .hbm, ⟨56, _⟩ => ⟨S50000x256, .f32⟩
  | .hbm, ⟨57, _⟩ => ⟨S1x256, .f32⟩
  | .hbm, ⟨58, _⟩ => ⟨S50000x256, .f32⟩
  | .hbm, ⟨59, _⟩ => ⟨S50000x256, .f32⟩
  | .hbm, ⟨60, _⟩ => ⟨S_, .f32⟩
  | .hbm, ⟨61, _⟩ => ⟨S50000x256, .f32⟩
  | .hbm, ⟨62, _⟩ => ⟨S50000x256, .f32⟩
  | .hbm, ⟨63, _⟩ => ⟨S50000x64, .f32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_cst : Ref sig .tc := ⟨.hbm, 40, rfl⟩
abbrev main_call0_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call1_cst : Ref sig .tc := ⟨.hbm, 60, rfl⟩
abbrev main_call1_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x10_S800000x202_d1 : Shape.Concatenates [S800000x64, S800000x64, S800000x64, S800000x10] S800000x202 1
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x202_S202x256_S800000x256_1_0_0_1_n_n_wf : DotDims.WF S800000x202 S202x256 S800000x256 [1] [0] [0] [1] [] []
  dot_S800000x256_S256x64_S800000x64_1_0_0_1_n_n_wf : DotDims.WF S800000x256 S256x64 S800000x64 [1] [0] [0] [1] [] []
  scatter_S50000x64_S800000x1_S800000x64_1_0_0_1_wf : ScatterDims.WF S50000x64 S800000x1 S800000x64 [1] [0] [0] 1
  dot_S50000x128_S128x256_S50000x256_1_0_0_1_n_n_wf : DotDims.WF S50000x128 S128x256 S50000x256 [1] [0] [0] [1] [] []
  dot_S50000x256_S256x64_S50000x64_1_0_0_1_n_n_wf : DotDims.WF S50000x256 S256x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x202_S202x256_S800000x256_1_0_0_1_n_n : DotDims S800000x202 S202x256 S800000x256 where
  lhsContracting := [1]
  rhsContracting := [0]
  lhsNonContracting := [0]
  rhsNonContracting := [1]
  lhsBatch := []
  rhsBatch := []
  wf := dot_S800000x202_S202x256_S800000x256_1_0_0_1_n_n_wf
def dot_S800000x256_S256x64_S800000x64_1_0_0_1_n_n : DotDims S800000x256 S256x64 S800000x64 where
  lhsContracting := [1]
  rhsContracting := [0]
  lhsNonContracting := [0]
  rhsNonContracting := [1]
  lhsBatch := []
  rhsBatch := []
  wf := dot_S800000x256_S256x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.KTerms.lean ====
/-
  Names for the pure terms the kernel program's host operations compute from the argument arrays: the two rows of
  the index table, an index column with negative entries wrapped by the table's height, the row gather that
  fills rows whose index is out of range with the not-a-number pattern, and the weight slices and bias rows the
  two kernels are handed.
-/
import proofs.«424888_j18013092840061_1_alg».proof.Proof.Gen.KernelIdeal

noncomputable section

namespace Cert.KernelIdeal.KTerms

open Cert.KernelIdeal Cert.KernelIdeal.Gen Idealize.ShloMosaic

variable {F : FTy → Type} [FloatOps F]

/-- Row 0 of the `2 × 800000` index table (the source nodes), as a vector. -/
def srcRow (a4 : IVec S2x800000 32) : IVec S800000 32 :=
  shapeCast _ (extractStridedSlice S1x800000 ![0, 0] a4 slices_S2x800000_S1x800000_0_0) shapeCasts_S1x800000_S800000

/-- Row 1 of the index table (the destination nodes), as a vector. -/
def dstRow (a4 : IVec S2x800000 32) : IVec S800000 32 :=
  shapeCast _ (extractStridedSlice S1x800000 ![1, 0] a4 slices_S2x800000_S1x800000_1_0) shapeCasts_S1x800000_S800000

/-- An index vector with `50000` added to its negative entries, as a column. -/
def wrapCol (r : IVec S800000 32) : IVec S800000x1 32 :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)

/-- Per row, whether the index column's entry lies in `[0, 49999]`, spread along the row. -/
def inRange (n : IVec S800000x1 32) : IVec S800000x64 1 :=
  broadcastInDim S800000x64 ![0] bcast_S800000_S800000x64_0
    (Host.reduce IntOp.andi
      (andi (cmpi .sge n (broadcastInDim S800000x1 ![] bcast_S_S800000x1 (constantI S_ 32 0#32)))
        (cmpi .sle n (broadcastInDim S800000x1 ![0, 1] bcast_S1x1_S800000x1_0_1
          (broadcastInDim S1x1 ![1] bcast_S1_S1x1_1 (constantI S1 32 49999#32)))))
      (constantI S_ 1 1#1) reducesTo_S800000x1_S800000_d1 h_S_)

/-- The rows of `x` at the index column `n`, a row whose index is out of range replaced by the fill pattern. -/
def takeRows (x : FVec F S50000x64 .f32) (n : IVec S800000x1 32) : FVec F S800000x64 .f32 :=
  select (inRange n) (Host.gather gather_S50000x64_S800000x1_S800000x64_1_0_n_n_0_1_164 x n)
    (broadcastInDim S800000x64 ![] bcast_S_S800000x64 (constant S_ .f32 0x7FC00000#32))

end Cert.KernelIdeal.KTerms

end
-- ==== Proof.KHost.lean ====
/-
  What the host operations of the kernel program compute between the launch and each kernel region, buffer by
  buffer: every stretch of operations is read over an arbitrary valuation of the buffers before it (what it writes,
  as a term of what it reads; what it does not write, unchanged), and the stretches are then composed from the
  launch memory. The gathers, slices, reshapes, the scaling by the edge norm and the scatter-add are kept as the
  named terms of the operations; nothing is read at an index here.
-/
import proofs.«424888_j18013092840061_1_alg».proof.Proof.Gen.KernelIdeal.Frame
import proofs.«424888_j18013092840061_1_alg».proof.Proof.KTerms
import Idealize.ShloMosaic.Lib.StableHlo.Run

set_option maxRecDepth 16384

noncomputable section

namespace Cert.KernelIdeal.HostValue

open Cert.KernelIdeal Cert.KernelIdeal.Gen Cert.KernelIdeal.KTerms
open Idealize.ShloMosaic Idealize.ShloMosaic.TcCoe Idealize.SL.Sem Idealize.ShloMosaic.StableHlo

variable {F : FTy → Type} [FloatOps F]

/-- A stretch of operations leaves each buffer of the list `rs` as it found it. -/
abbrev Keeps (ops : List (HloOp τ sig (Elt F))) (X : Valuation τ sig (Elt F)) (rs : List (Ref sig .tc)) : Prop :=
  rs.Forall fun r => after ops X (Proc.devRef .tc r) = X (Proc.devRef .tc r)

theorem Keeps.at {ops : List (HloOp τ sig (Elt F))} {X : Valuation τ sig (Elt F)} {rs : List (Ref sig .tc)}
    (h : Keeps ops X rs) (r : Ref sig .tc) (hr : r ∈ rs) : after ops X (Proc.devRef .tc r) = X (Proc.devRef .tc r) :=
  List.forall_iff_forall_mem.mp h r hr

/-- The thirteen argument arrays. -/
abbrev argRefs : List (Ref sig .tc) :=
  [main_arg0, main_arg1, main_arg2, main_arg3, main_arg4, main_arg5, main_arg6, main_arg7, main_arg8, main_arg9,
    main_arg10, main_arg11, main_arg12]

variable (X : Valuation τ sig (Elt F))

/-! ## Transport along a buffer's type

An operation of a called function reads and writes its buffers through a transport of contents along "the buffer's
type is the value's type"; for a literal buffer that equation holds by computation and the transport is the identity. -/

theorem ofBuf_toBuf {Val : EltTy → Type} {T : BufTy} (x : TRef sig T) (v : T.Contents Val) : x.ofBuf (x.toBuf v) = v := by
  unfold TRef.ofBuf TRef.toBuf
  simp only [cast_cast, cast_eq]
theorem ofBuf_v1 (h1 h2 h3) (v : main_v1.ty.Contents (Elt F)) :
    (TRef.of (T := ⟨S800000, .i32⟩) main_v1 h1 h2 h3).ofBuf v = (v : IVec S800000 32) := rfl
theorem ofBuf_v3 (h1 h2 h3) (v : main_v3.ty.Contents (Elt F)) :
    (TRef.of (T := ⟨S800000, .i32⟩) main_v3 h1 h2 h3).ofBuf v = (v : IVec S800000 32) := rfl
theorem ofBuf_arg0 (h1 h2 h3) (v : main_arg0.ty.Contents (Elt F)) :
    (TRef.of (T := ⟨S50000x64, .f32⟩) main_arg0 h1 h2 h3).ofBuf v = (v : FVec F S50000x64 .f32) := rfl
theorem toBuf_v4 (h1 h2 h3) (v : FVec F S800000x64 .f32) :
    (TRef.of (T := ⟨S800000x64, .f32⟩) main_v4 h1 h2 h3).toBuf (Val := Elt F) v = v := rfl
theorem toBuf_v5 (h1 h2 h3) (v : FVec F S800000x64 .f32) :
    (TRef.of (T := ⟨S800000x64, .f32⟩) main_v5 h1 h2 h3).toBuf (Val := Elt F) v = v := rfl

/-! ## The first stretch: the two rows of the index table -/

theorem rows_src : after (hostOps0 (F := F)) X (Proc.devRef .tc main_v1) = srcRow (X (Proc.devRef .tc main_arg4)) := by
  after_results; rfl
theorem rows_dst : after (hostOps0 (F := F)) X (Proc.devRef .tc main_v3) = dstRow (X (Proc.devRef .tc main_arg4)) := by
  after_results; rfl
theorem rows_keeps : Keeps (hostOps0 (F := F)) X argRefs := by
  simp only [Keeps, List.Forall]; repeat' apply And.intro
  all_goals after_results

/-! ## The two gathers -/

set_option maxHeartbeats 2000000 in
theorem take_src : after (hostOps0_1 (F := F)) X (Proc.devRef .tc main_v4)
    = takeRows (X (Proc.devRef .tc main_arg0)) (wrapCol (X (Proc.devRef .tc main_v1))) := by
  after_results_simp
  simp only [ofBuf_toBuf, ofBuf_v1, ofBuf_arg0, toBuf_v4]
  unfold takeRows inRange wrapCol
  rfl
theorem take_src_keeps : Keeps (hostOps0_1 (F := F)) X (main_v3 :: argRefs) := by
  simp only [Keeps, List.Forall]; repeat' apply And.intro
  all_goals after_results

set_option maxHeartbeats 2000000 in
theorem take_dst : after (hostOps0_2 (F := F)) X (Proc.devRef .tc main_v5)
    = takeRows (X (Proc.devRef .tc main_arg0)) (wrapCol (X (Proc.devRef .tc main_v3))) := by
  after_results_simp
  simp only [ofBuf_toBuf, ofBuf_v3, ofBuf_arg0, toBuf_v5]
  unfold takeRows inRange wrapCol
  rfl
theorem take_dst_keeps : Keeps (hostOps0_2 (F := F)) X (main_v4 :: main_v3 :: argRefs) := by
  simp only [Keeps, List.Forall]; repeat' apply And.intro
  all_goals after_results

/-! ## The edge kernel's weight pieces and bias rows -/

theorem edge_w0 : after (hostOps0_3 (F := F)) X (Proc.devRef .tc main_v6)
    = extractStridedSlice S64x256 ![0, 0] (X (Proc.devRef .tc main_arg5)) slices_S202x256_S64x256_0_0 := by
  after_results
theorem edge_w1 : after (hostOps0_3 (F := F)) X (Proc.devRef .tc main_v7)
    = extractStridedSlice S64x256 ![64, 0] (X (Proc.devRef .tc main_arg5)) slices_S202x256_S64x256_64_0 := by
  after_results
theorem edge_w2 : after (hostOps0_3 (F := F)) X (Proc.devRef .tc main_v8)
    = extractStridedSlice S64x256 ![128, 0] (X (Proc.devRef .tc main_arg5)) slices_S202x256_S64x256_128_0 := by
  after_results
theorem edge_w3 : after (hostOps0_3 (F := F)) X (Proc.devRef .tc main_v9)
    = extractStridedSlice S10x256 ![192, 0] (X (Proc.devRef .tc main_arg5)) slices_S202x256_S10x256_192_0 := by
  after_results
theorem edge_b : after (hostOps0_3 (F := F)) X (Proc.devRef .tc main_v10)
    = shapeCast S1x256 (X (Proc.devRef .tc main_arg6)) shapeCasts_S256_S1x256 := by
  after_results; rfl
theorem edge_bb : after (hostOps0_3 (F := F)) X (Proc.devRef .tc main_v11)
    = shapeCast S1x64 (X (Proc.devRef .tc main_arg8)) shapeCasts_S64_S1x64 := by
  after_results; rfl
theorem edge_w_keeps : Keeps (hostOps0_3 (F := F)) X (main_v5 :: main_v4 :: main_v3 :: argRefs) := by
  simp only [Keeps, List.Forall]; repeat' apply And.intro
  all_goals after_results

/-! ## Between the regions: the scaled edge result summed into its destination nodes, the node kernel's pieces -/

/-- The rows of `he`, each scaled by its edge's norm, summed into the rows their destination indices name. -/
def scatterSum (dst : IVec S800000 32) (he : FVec F S800000x64 .f32) (nrm : FVec F S800000 .f32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (mulf he (broadcastInDim S800000x64 ![0, 1] bcast_S800000x1_S800000x64_0_1
      (broadcastInDim S800000x1 ![0] bcast_S800000_S800000x1_0 nrm)))

theorem node_sum : after (hostOps1 (F := F)) X (Proc.devRef .tc main_v18)
    = scatterSum (X (Proc.devRef .tc main_v3)) (X (Proc.devRef .tc main_v12)) (X (Proc.devRef .tc main_arg3)) := by
  after_results; rfl
theorem node_w0 : after (hostOps1 (F := F)) X (Proc.devRef .tc main_v19)
    = extractStridedSlice S64x256 ![0, 0] (X (Proc.devRef .tc main_arg9)) slices_S128x256_S64x256_0_0 := by
  after_results
theorem node_w1 : after (hostOps1 (F := F)) X (Proc.devRef .tc main_v20)
    = extractStridedSlice S64x256 ![64, 0] (X (Proc.devRef .tc main_arg9)) slices_S128x256_S64x256_64_0 := by
  after_results
theorem node_b : after (hostOps1 (F := F)) X (Proc.devRef .tc main_v21)
    = shapeCast S1x256 (X (Proc.devRef .tc main_arg10)) shapeCasts_S256_S1x256 := by
  after_results; rfl
theorem node_bb : after (hostOps1 (F := F)) X (Proc.devRef .tc main_v22)
    = shapeCast S1x64 (X (Proc.devRef .tc main_arg12)) shapeCasts_S64_S1x64 := by
  after_results; rfl
theorem node_keeps : Keeps (hostOps1 (F := F)) X (main_v12 :: main_v3 :: argRefs) := by
  simp only [Keeps, List.Forall]; repeat' apply And.intro
  all_goals after_results

end Cert.KernelIdeal.HostValue

end
-- ==== Proof.Spec.lean ====
/-
  The mathematics of the two kernels, stated once over arrays of any number of rows.

  Both kernels are a residual two-layer perceptron applied row by row: for a row `r` with input pieces
  `x₀ r, x₁ r, …` (each a vector) the hidden vector is `h = relu (∑ₚ xₚ r · wₚ + b)` and the result is
  `x₀ r + (h · W + b')`. The edge kernel has four pieces (widths 64, 64, 64, 10), the node kernel two
  (64, 64). A row of the result reads only the same row of each input, so the formula at a block of rows
  of an array is the block of the formula at the array.

  Also here: a sum over 202 = 64 + 64 + 64 + 10 (resp. 128 = 64 + 64) terms split along that decomposition,
  which is how a product with a matrix whose rows are laid end to end becomes the sum of the pieces'
  products. Only commutativity and associativity of addition are used, so everything holds on the
  extended reals with no finiteness assumption.
-/
import Idealize.ShloMosaic.PureOps.Ideal
import Idealize.ShloMosaic.Lib.ValueIdx
import Mathlib.Algebra.BigOperators.Fin

noncomputable section

open scoped BigOperators

namespace Cert.Spec

open Idealize.ShloMosaic Idealize.ShloMosaic.ValueIdx

/-- A rank-2 array of extended reals. -/
abbrev Arr2 (a b : Nat) : Type := (⟨2, ![a, b]⟩ : Shape).Idx → EReal

/-- Hidden unit `k` of row `r` of the edge perceptron: the four partial products, the bias, then `max · 0`. -/
def edgeHid {R : Nat} (x0 x1 x2 : Arr2 R 64) (x3 : Arr2 R 10) (w0 w1 w2 : Arr2 64 256) (w3 : Arr2 10 256)
    (b : Arr2 1 256) (r : Fin R) (k : Fin 256) : EReal :=
  max (((((∑ i : Fin 64, x0 (ix2 r i) * w0 (ix2 i k)) + ∑ i : Fin 64, x1 (ix2 r i) * w1 (ix2 i k))
      + ∑ i : Fin 64, x2 (ix2 r i) * w2 (ix2 i k)) + ∑ i : Fin 10, x3 (ix2 r i) * w3 (ix2 i k)) + b (ix2 0 k)) 0

/-- Entry `(r, q)` of the edge perceptron's result: the residual plus the second layer. -/
def edgeAt {R : Nat} (x0 x1 x2 : Arr2 R 64) (x3 : Arr2 R 10) (w0 w1 w2 : Arr2 64 256) (w3 : Arr2 10 256)
    (b : Arr2 1 256) (wb : Arr2 256 64) (bb : Arr2 1 64) (r : Fin R) (q : Fin 64) : EReal :=
  x0 (ix2 r q) + ((∑ k : Fin 256, edgeHid x0 x1 x2 x3 w0 w1 w2 w3 b r k * wb (ix2 k q)) + bb (ix2 0 q))

/-- The edge perceptron as one function of whole arrays. -/
def edgeMlp {R : Nat} (x0 x1 x2 : Arr2 R 64) (x3 : Arr2 R 10) (w0 w1 w2 : Arr2 64 256) (w3 : Arr2 10 256)
    (b : Arr2 1 256) (wb : Arr2 256 64) (bb : Arr2 1 64) : Arr2 R 64 :=
  fun j => edgeAt x0 x1 x2 x3 w0 w1 w2 w3 b wb bb (j 0) (j 1)

/-- Hidden unit `k` of row `r` of the node perceptron. -/
def nodeHid {R : Nat} (x0 x1 : Arr2 R 64) (w0 w1 : Arr2 64 256) (b : Arr2 1 256) (r : Fin R) (k : Fin 256) : EReal :=
  max (((∑ i : Fin 64, x0 (ix2 r i) * w0 (ix2 i k)) + ∑ i : Fin 64, x1 (ix2 r i) * w1 (ix2 i k)) + b (ix2 0 k)) 0

/-- Entry `(r, q)` of the node perceptron's result. -/
def nodeAt {R : Nat} (x0 x1 : Arr2 R 64) (w0 w1 : Arr2 64 256) (b : Arr2 1 256) (wb : Arr2 256 64) (bb : Arr2 1 64)
    (r : Fin R) (q : Fin 64) : EReal :=
  x0 (ix2 r q) + ((∑ k : Fin 256, nodeHid x0 x1 w0 w1 b r k * wb (ix2 k q)) + bb (ix2 0 q))

/-- The node perceptron as one function of whole arrays. -/
def nodeMlp {R : Nat} (x0 x1 : Arr2 R 64) (w0 w1 : Arr2 64 256) (b : Arr2 1 256) (wb : Arr2 256 64) (bb : Arr2 1 64) :
    Arr2 R 64 :=
  fun j => nodeAt x0 x1 w0 w1 b wb bb (j 0) (j 1)

/-- A row of the edge result reads only that row of the row-indexed inputs: if the inputs of one problem at row
    `r` are those of another at row `r'`, the results agree there. -/
theorem edgeAt_congr {R R' : Nat} (x0 x1 x2 : Arr2 R 64) (x3 : Arr2 R 10) (y0 y1 y2 : Arr2 R' 64) (y3 : Arr2 R' 10)
    (w0 w1 w2 : Arr2 64 256) (w3 : Arr2 10 256) (b : Arr2 1 256) (wb : Arr2 256 64) (bb : Arr2 1 64)
    (r : Fin R) (r' : Fin R')
    (h0 : ∀ i, x0 (ix2 r i) = y0 (ix2 r' i)) (h1 : ∀ i, x1 (ix2 r i) = y1 (ix2 r' i))
    (h2 : ∀ i, x2 (ix2 r i) = y2 (ix2 r' i)) (h3 : ∀ i, x3 (ix2 r i) = y3 (ix2 r' i)) (q : Fin 64) :
    edgeAt x0 x1 x2 x3 w0 w1 w2 w3 b wb bb r q = edgeAt y0 y1 y2 y3 w0 w1 w2 w3 b wb bb r' q := by
  unfold edgeAt edgeHid
  simp only [h0, h1, h2, h3]

/-- The same for the node result. -/
theorem nodeAt_congr {R R' : Nat} (x0 x1 : Arr2 R 64) (y0 y1 : Arr2 R' 64)
    (w0 w1 : Arr2 64 256) (b : Arr2 1 256) (wb : Arr2 256 64) (bb : Arr2 1 64) (r : Fin R) (r' : Fin R')
    (h0 : ∀ i, x0 (ix2 r i) = y0 (ix2 r' i)) (h1 : ∀ i, x1 (ix2 r i) = y1 (ix2 r' i)) (q : Fin 64) :
    nodeAt x0 x1 w0 w1 b wb bb r q = nodeAt y0 y1 w0 w1 b wb bb r' q := by
  unfold nodeAt nodeHid
  simp only [h0, h1]

/-- A sum of 202 terms as the sum of its first 64, next 64, next 64 and last 10. -/
theorem sum_202 {M : Type*} [AddCommMonoid M] (f : Fin 202 → M) :
    ∑ k, f k = (((∑ i : Fin 64, f ⟨i.val, by omega⟩) + ∑ i : Fin 64, f ⟨64 + i.val, by omega⟩)
      + ∑ i : Fin 64, f ⟨128 + i.val, by omega⟩) + ∑ i : Fin 10, f ⟨192 + i.val, by omega⟩ := by
  have e := Fin.sum_univ_add (M := M) (a := 64 + 64 + 64) (b := 10) f
  rw [Fin.sum_univ_add (M := M) (a := 64 + 64) (b := 64) (fun i => f (Fin.castAdd 10 i)),
    Fin.sum_univ_add (M := M) (a := 64) (b := 64) (fun i => f (Fin.castAdd 10 (Fin.castAdd 64 i)))] at e
  exact e

/-- A sum of 128 terms as the sum of its first 64 and last 64. -/
theorem sum_128 {M : Type*} [AddCommMonoid M] (f : Fin 128 → M) :
    ∑ k, f k = (∑ i : Fin 64, f ⟨i.val, by omega⟩) + ∑ i : Fin 64, f ⟨64 + i.val, by omega⟩ :=
  Fin.sum_univ_add (M := M) (a := 64) (b := 64) f

end Cert.Spec

end
-- ==== Proof.EdgeValue.lean ====
/-
  What the edge kernel leaves in its result array: the edge perceptron of its eleven input arrays, whole.
-/
import proofs.«424888_j18013092840061_1_alg».proof.Proof.Gen.KernelIdeal.Frame
import proofs.«424888_j18013092840061_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeValue

open Cert.KernelIdeal Cert.KernelIdeal.Gen Idealize.ShloMosaic Idealize.ShloMosaic.TcCoe Idealize.SL.Sem
open Idealize.ShloMosaic.ValueIdx
open Idealize.ShloMosaic.Pipeline (Dat Cfg Window)

open scoped BigOperators

/-! ## The three products of the body, read at an entry

Each product contracts the second axis of its left operand with the first axis of its right one, so its entry
`(p, k)` is `∑ i, a (p, i) * b (i, k)`; into the zero accumulator nothing is added to that sum. -/

/-! ### A 64-column block of rows times a 64-row weight -/

private theorem lhs_w64_0 (i : S5000x256.Idx) (q : dot_S5000x64_S64x256_S5000x256_1_0_0_1_n_n.contr.Idx) :
    (dot_S5000x64_S64x256_S5000x256_1_0_0_1_n_n.lhsIdx i q 0).val = (i 0).val := by
  unfold DotDims.lhsIdx
  rw [dif_neg (show ¬(0 : Fin S5000x64.rank) ∈ dot_S5000x64_S64x256_S5000x256_1_0_0_1_n_n.lhsBatch by decide), dif_pos (show (0 : Fin S5000x64.rank) ∈ dot_S5000x64_S64x256_S5000x256_1_0_0_1_n_n.lhsNonContracting by decide)]
  rfl
private theorem lhs_w64_1 (i : S5000x256.Idx) (q : dot_S5000x64_S64x256_S5000x256_1_0_0_1_n_n.contr.Idx) :
    (dot_S5000x64_S64x256_S5000x256_1_0_0_1_n_n.lhsIdx i q 1).val = (q ⟨0, by decide⟩).val :=
  dot_S5000x64_S64x256_S5000x256_1_0_0_1_n_n.lhsIdx_val_of_single rfl i q
private theorem rhs_w64_0 (i : S5000x256.Idx) (q : dot_S5000x64_S64x256_S5000x256_1_0_0_1_n_n.contr.Idx) :
    (dot_S5000x64_S64x256_S5000x256_1_0_0_1_n_n.rhsIdx i q 0).val = (q ⟨0, by decide⟩).val :=
  dot_S5000x64_S64x256_S5000x256_1_0_0_1_n_n.rhsIdx_val_of_single rfl i q
private theorem rhs_w64_1 (i : S5000x256.Idx) (q : dot_S5000x64_S64x256_S5000x256_1_0_0_1_n_n.contr.Idx) :
    (dot_S5000x64_S64x256_S5000x256_1_0_0_1_n_n.rhsIdx i q 1).val = (i 1).val := by
  unfold DotDims.rhsIdx
  rw [dif_neg (show ¬(1 : Fin S64x256.rank) ∈ dot_S5000x64_S64x256_S5000x256_1_0_0_1_n_n.rhsBatch by decide), dif_pos (show (1 : Fin S64x256.rank) ∈ dot_S5000x64_S64x256_S5000x256_1_0_0_1_n_n.rhsNonContracting by decide)]
  rfl

/-- Entry `(p, k)` of a 64-column block times a 64-row weight. -/
private theorem mul_w64_apply {φ₁ φ₂ : FTy} (a : FVec Ideal S5000x64 φ₁) (b : FVec Ideal S64x256 φ₂) (p : Fin 5000) (k : Fin 256) :
    matmul dot_S5000x64_S64x256_S5000x256_1_0_0_1_n_n none a b (constant (F := Ideal) S5000x256 .f32 0x00000000#32) (ix2 p k)
      = ∑ i : Fin 64, a (ix2 p i) * b (ix2 i k) := by
  show FloatOps.matmul dot_S5000x64_S64x256_S5000x256_1_0_0_1_n_n none a b (constant (F := Ideal) S5000x256 .f32 0x00000000#32) (ix2 p k) = _
  rw [Ideal.matmul_constant_zero_apply, ← Equiv.sum_comp (contrEquiv1 dot_S5000x64_S64x256_S5000x256_1_0_0_1_n_n 64 rfl rfl).symm]
  refine Finset.sum_congr rfl fun i _ => ?_
  have hk := contrEquiv1_symm_val dot_S5000x64_S64x256_S5000x256_1_0_0_1_n_n 64 rfl rfl i
  have el : dot_S5000x64_S64x256_S5000x256_1_0_0_1_n_n.lhsIdx (ix2 p k) ((contrEquiv1 dot_S5000x64_S64x256_S5000x256_1_0_0_1_n_n 64 rfl rfl).symm i) = ix2 p i := funext fun a => Fin.ext (by
    match a with
    | ⟨0, _⟩ => exact lhs_w64_0 _ _
    | ⟨1, _⟩ => exact (lhs_w64_1 _ _).trans hk)
  have er : dot_S5000x64_S64x256_S5000x256_1_0_0_1_n_n.rhsIdx (ix2 p k) ((contrEquiv1 dot_S5000x64_S64x256_S5000x256_1_0_0_1_n_n 64 rfl rfl).symm i) = ix2 i k := funext fun a => Fin.ext (by
    match a with
    | ⟨0, _⟩ => exact (rhs_w64_0 _ _).trans hk
    | ⟨1, _⟩ => exact rhs_w64_1 _ _)
  rw [el, er]

/-! ### The 10-column block times its 10-row weight -/

private theorem lhs_w10_0 (i : S5000x256.Idx) (q : dot_S5000x10_S10x256_S5000x256_1_0_0_1_n_n.contr.Idx) :
    (dot_S5000x10_S10x256_S5000x256_1_0_0_1_n_n.lhsIdx i q 0).val = (i 0).val := by
  unfold DotDims.lhsIdx
  rw [dif_neg (show ¬(0 : Fin S5000x10.rank) ∈ dot_S5000x10_S10x256_S5000x256_1_0_0_1_n_n.lhsBatch by decide), dif_pos (show (0 : Fin S5000x10.rank) ∈ dot_S5000x10_S10x256_S5000x256_1_0_0_1_n_n.lhsNonContracting by decide)]
  rfl
private theorem lhs_w10_1 (i : S5000x256.Idx) (q : dot_S5000x10_S10x256_S5000x256_1_0_0_1_n_n.contr.Idx) :
    (dot_S5000x10_S10x256_S5000x256_1_0_0_1_n_n.lhsIdx i q 1).val = (q ⟨0, by decide⟩).val :=
  dot_S5000x10_S10x256_S5000x256_1_0_0_1_n_n.lhsIdx_val_of_single rfl i q
private theorem rhs_w10_0 (i : S5000x256.Idx) (q : dot_S5000x10_S10x256_S5000x256_1_0_0_1_n_n.contr.Idx) :
    (dot_S5000x10_S10x256_S5000x256_1_0_0_1_n_n.rhsIdx i q 0).val = (q ⟨0, by decide⟩).val :=
  dot_S5000x10_S10x256_S5000x256_1_0_0_1_n_n.rhsIdx_val_of_single rfl i q
private theorem rhs_w10_1 (i : S5000x256.Idx) (q : dot_S5000x10_S10x256_S5000x256_1_0_0_1_n_n.contr.Idx) :
    (dot_S5000x10_S10x256_S5000x256_1_0_0_1_n_n.rhsIdx i q 1).val = (i 1).val := by
  unfold DotDims.rhsIdx
  rw [dif_neg (show ¬(1 : Fin S10x256.rank) ∈ dot_S5000x10_S10x256_S5000x256_1_0_0_1_n_n.rhsBatch by decide), dif_pos (show (1 : Fin S10x256.rank) ∈ dot_S5000x10_S10x256_S5000x256_1_0_0_1_n_n.rhsNonContracting by decide)]
  rfl

/-- Entry `(p, k)` of the 10-column block times its 10-row weight. -/
private theorem mul_w10_apply {φ₁ φ₂ : FTy} (a : FVec Ideal S5000x10 φ₁) (b : FVec Ideal S10x256 φ₂) (p : Fin 5000) (k : Fin 256) :
    matmul dot_S5000x10_S10x256_S5000x256_1_0_0_1_n_n none a b (constant (F := Ideal) S5000x256 .f32 0x00000000#32) (ix2 p k)
      = ∑ i : Fin 10, a (ix2 p i) * b (ix2 i k) := by
  show FloatOps.matmul dot_S5000x10_S10x256_S5000x256_1_0_0_1_n_n none a b (constant (F := Ideal) S5000x256 .f32 0x00000000#32) (ix2 p k) = _
  rw [Ideal.matmul_constant_zero_apply, ← Equiv.sum_comp (contrEquiv1 dot_S5000x10_S10x256_S5000x256_1_0_0_1_n_n 10 rfl rfl).symm]
  refine Finset.sum_congr rfl fun i _ => ?_
  have hk := contrEquiv1_symm_val dot_S5000x10_S10x256_S5000x256_1_0_0_1_n_n 10 rfl rfl i
  have el : dot_S5000x10_S10x256_S5000x256_1_0_0_1_n_n.lhsIdx (ix2 p k) ((contrEquiv1 dot_S5000x10_S10x256_S5000x256_1_0_0_1_n_n 10 rfl rfl).symm i) = ix2 p i := funext fun a => Fin.ext (by
    match a with
    | ⟨0, _⟩ => exact lhs_w10_0 _ _
    | ⟨1, _⟩ => exact (lhs_w10_1 _ _).trans hk)
  have er : dot_S5000x10_S10x256_S5000x256_1_0_0_1_n_n.rhsIdx (ix2 p k) ((contrEquiv1 dot_S5000x10_S10x256_S5000x256_1_0_0_1_n_n 10 rfl rfl).symm i) = ix2 i k := funext fun a => Fin.ext (by
    match a with
    | ⟨0, _⟩ => exact (rhs_w10_0 _ _).trans hk
    | ⟨1, _⟩ => exact rhs_w10_1 _ _)
  rw [el, er]

/-! ### The hidden block times the second layer's weight -/

private theorem lhs_hid_0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
private theorem lhs_hid_1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
private theorem rhs_hid_0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
private theorem rhs_hid_1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- Entry `(p, q)` of the hidden block times the second layer's weight. -/
private theorem mul_hid_apply {φ₁ φ₂ : FTy} (a : FVec Ideal S5000x256 φ₁) (b : FVec Ideal S256x64 φ₂) (p : Fin 5000) (k : Fin 64) :
    matmul dot_S5000x256_S256x64_S5000x64_1_0_0_1_n_n none a b (constant (F := Ideal) S5000x64 .f32 0x00000000#32) (ix2 p k)
      = ∑ i : Fin 256, a (ix2 p i) * b (ix2 i k) := by
  show FloatOps.matmul dot_S5000x256_S256x64_S5000x64_1_0_0_1_n_n none a b (constant (F := Ideal) S5000x64 .f32 0x00000000#32) (ix2 p k) = _
  rw [Ideal.matmul_constant_zero_apply, ← Equiv.sum_comp (contrEquiv1 dot_S5000x256_S256x64_S5000x64_1_0_0_1_n_n 256 rfl rfl).symm]
  refine Finset.sum_congr rfl fun i _ => ?_
  have hk := contrEquiv1_symm_val dot_S5000x256_S256x64_S5000x64_1_0_0_1_n_n 256 rfl rfl i
  have el : dot_S5000x256_S256x64_S5000x64_1_0_0_1_n_n.lhsIdx (ix2 p k) ((contrEquiv1 dot_S5000x256_S256x64_S5000x64_1_0_0_1_n_n 256 rfl rfl).symm i) = ix2 p i := funext fun a => Fin.ext (by
    match a with
    | ⟨0, _⟩ => exact lhs_hid_0 _ _
    | ⟨1, _⟩ => exact (lhs_hid_1 _ _).trans hk)
  have er : dot_S5000x256_S256x64_S5000x64_1_0_0_1_n_n.rhsIdx (ix2 p k) ((contrEquiv1 dot_S5000x256_S256x64_S5000x64_1_0_0_1_n_n 256 rfl rfl).symm i) = ix2 i k := funext fun a => Fin.ext (by
    match a with
    | ⟨0, _⟩ => exact (rhs_hid_0 _ _).trans hk
    | ⟨1, _⟩ => exact rhs_hid_1 _ _)
  rw [el, er]

/-! ## The body's two values at an entry -/

/-- The zero offsets of a whole-buffer access. -/
private theorem hz : (![0, 0] : Fin 2 → Nat) = fun _ => 0 := funext fun a => by fin_cases a <;> rfl

/-- The first value, the hidden block, at `(p, k)`: the hidden unit `k` of row `p` of the loaded blocks. -/
private theorem hidden_apply (x0 x1 x2 : Vec Ideal S5000x64 .f32) (x3 : Vec Ideal S5000x10 .f32) (x4 x5 x6 : Vec Ideal S64x256 .f32)
    (x7 : Vec Ideal S10x256 .f32) (x8 : Vec Ideal S1x256 .f32) (p : Fin 5000) (k : Fin 256) :
    k0_pay2 (F := Ideal) x0 x1 x2 x3 x4 x5 x6 x7 x8 (ix2 p k) = Cert.Spec.edgeHid x0 x1 x2 x3 x4 x5 x6 x7 x8 p k := by
  unfold k0_pay2 Cert.Spec.edgeHid
  simp only [shapeCast_self]
  simp only [truncf_apply, maximumf_apply, addf_apply, broadcast_apply, mul_w64_apply, mul_w10_apply, broadcastTo_1b_ab_apply]
  exact congrArg (max _) Ideal.ofBits_zero_f32

/-- The second value, the stored block, at `(p, q)`, over ANY hidden block `h`: the residual plus the second layer. -/
private theorem result_apply (x0 : Vec Ideal S5000x64 .f32) (h : FVec Ideal S5000x256 .bf16) (x9 : Vec Ideal S256x64 .f32)
    (x10 : Vec Ideal S1x64 .f32) (p : Fin 5000) (q : Fin 64) :
    k0_pay1 (F := Ideal) x0 h x9 x10 (ix2 p q) = x0 (ix2 p q) + ((∑ k : Fin 256, h (ix2 p k) * x9 (ix2 k q)) + x10 (ix2 0 q)) := by
  unfold k0_pay1
  simp only [shapeCast_self]
  simp only [truncf_apply, addf_apply, mul_hid_apply, broadcastTo_1b_ab_apply]

/-- WHAT THE BODY LEAVES in the output's staging buffer is the edge perceptron of the eleven loaded blocks. -/
private theorem out_eq (x0 x1 x2 : Vec Ideal S5000x64 .f32) (x3 : Vec Ideal S5000x10 .f32) (x4 x5 x6 : Vec Ideal S64x256 .f32)
    (x7 : Vec Ideal S10x256 .f32) (x8 : Vec Ideal S1x256 .f32) (x9 : Vec Ideal S256x64 .f32) (x10 : Vec Ideal S1x64 .f32) :
    out0_11 (F := Ideal) x0 x1 x2 x3 x4 x5 x6 x7 x8 x9 x10 = Cert.Spec.edgeMlp x0 x1 x2 x3 x4 x5 x6 x7 x8 x9 x10 := by
  unfold out0_11
  rw [View.canon_unit_zero hz]
  simp only [View.ld_unit_zero (S := S5000x64) hz, View.ld_unit_zero (S := S5000x10) hz, View.ld_unit_zero (S := S64x256) hz,
    View.ld_unit_zero (S := S10x256) hz, View.ld_unit_zero (S := S1x256) hz, View.ld_unit_zero (S := S256x64) hz,
    View.ld_unit_zero (S := S1x64) hz]
  funext j
  obtain ⟨p, q, rfl⟩ : ∃ (p : Fin 5000) (q : Fin 64), j = ix2 p q := ⟨j 0, j 1, eq_ix2 j⟩
  rw [result_apply]
  simp only [hidden_apply]
  rfl

/-! ## From the blocks to the arrays -/

/-- The windows' index maps over the grid: a row-indexed window's block at point `t` is block `(t, 0)`,
    a weight's or bias row's is block `(0, 0)`. -/
private theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0) :=
  (by decide +kernel : ∀ t : Fin grid0.N, _)

variable (V : (c : Dev nD) → (b : Ref sig .tc) → Buf (Elt Ideal) ((c : Thread nD τ).loc b))

/-! ### The weights and bias rows: whole windows -/

/-- The first weight's window is whole: its block at any point is the array. -/
private theorem blk4_eq (c : Dev nD) (t : Fin cfg0.N) : iblk0 V c 4 t = V c main_v6 := by
  obtain ⟨-, -, -, -, ⟨e4a, e4b⟩, ⟨e5a, e5b⟩, ⟨e6a, e6b⟩, ⟨e7a, e7b⟩, ⟨e8a, e8b⟩, ⟨e9a, e9b⟩, ⟨e10a, e10b⟩, -⟩ := idx_facts t
  funext y
  show V c main_v6 (((cfg0.win 4).blk t).view.emb y) = V c main_v6 y
  refine congrArg (V c main_v6) (funext fun a => Fin.ext ?_)
  match a with
  | ⟨0, _⟩ => show win0_4.index t (0 : Fin 2) * 64 + 1 * (y 0).val = (y 0).val; omega
  | ⟨1, _⟩ => show win0_4.index t (1 : Fin 2) * 256 + 1 * (y 1).val = (y 1).val; omega

/-- So is the second weight's, -/
private theorem blk5_eq (c : Dev nD) (t : Fin cfg0.N) : iblk0 V c 5 t = V c main_v7 := by
  obtain ⟨-, -, -, -, ⟨e4a, e4b⟩, ⟨e5a, e5b⟩, ⟨e6a, e6b⟩, ⟨e7a, e7b⟩, ⟨e8a, e8b⟩, ⟨e9a, e9b⟩, ⟨e10a, e10b⟩, -⟩ := idx_facts t
  funext y
  show V c main_v7 (((cfg0.win 5).blk t).view.emb y) = V c main_v7 y
  refine congrArg (V c main_v7) (funext fun a => Fin.ext ?_)
  match a with
  | ⟨0, _⟩ => show win0_5.index t (0 : Fin 2) * 64 + 1 * (y 0).val = (y 0).val; omega
  | ⟨1, _⟩ => show win0_5.index t (1 : Fin 2) * 256 + 1 * (y 1).val = (y 1).val; omega

/-- the third weight's, -/
private theorem blk6_eq (c : Dev nD) (t : Fin cfg0.N) : iblk0 V c 6 t = V c main_v8 := by
  obtain ⟨-, -, -, -, ⟨e4a, e4b⟩, ⟨e5a, e5b⟩, ⟨e6a, e6b⟩, ⟨e7a, e7b⟩, ⟨e8a, e8b⟩, ⟨e9a, e9b⟩, ⟨e10a, e10b⟩, -⟩ := idx_facts t
  funext y
  show V c main_v8 (((cfg0.win 6).blk t).view.emb y) = V c main_v8 y
  refine congrArg (V c main_v8) (funext fun a => Fin.ext ?_)
  match a with
  | ⟨0, _⟩ => show win0_6.index t (0 : Fin 2) * 64 + 1 * (y 0).val = (y 0).val; omega
  | ⟨1, _⟩ => show win0_6.index t (1 : Fin 2) * 256 + 1 * (y 1).val = (y 1).val; omega

/-- the fourth weight's, -/
private theorem blk7_eq (c : Dev nD) (t : Fin cfg0.N) : iblk0 V c 7 t = V c main_v9 := by
  obtain ⟨-, -, -, -, ⟨e4a, e4b⟩, ⟨e5a, e5b⟩, ⟨e6a, e6b⟩, ⟨e7a, e7b⟩, ⟨e8a, e8b⟩, ⟨e9a, e9b⟩, ⟨e10a, e10b⟩, -⟩ := idx_facts t
  funext y
  show V c main_v9 (((cfg0.win 7).blk t).view.emb y) = V c main_v9 y
  refine congrArg (V c main_v9) (funext fun a => Fin.ext ?_)
  match a with
  | ⟨0, _⟩ => show win0_7.index t (0 : Fin 2) * 10 + 1 * (y 0).val = (y 0).val; omega
  | ⟨1, _⟩ => show win0_7.index t (1 : Fin 2) * 256 + 1 * (y 1).val = (y 1).val; omega

/-- the first layer's bias row's, -/
private theorem blk8_eq (c : Dev nD) (t : Fin cfg0.N) : iblk0 V c 8 t = V c main_v10 := by
  obtain ⟨-, -, -, -, ⟨e4a, e4b⟩, ⟨e5a, e5b⟩, ⟨e6a, e6b⟩, ⟨e7a, e7b⟩, ⟨e8a, e8b⟩, ⟨e9a, e9b⟩, ⟨e10a, e10b⟩, -⟩ := idx_facts t
  funext y
  show V c main_v10 (((cfg0.win 8).blk t).view.emb y) = V c main_v10 y
  refine congrArg (V c main_v10) (funext fun a => Fin.ext ?_)
  match a with
  | ⟨0, _⟩ => show win0_8.index t (0 : Fin 2) * 1 + 1 * (y 0).val = (y 0).val; omega
  | ⟨1, _⟩ => show win0_8.index t (1 : Fin 2) * 256 + 1 * (y 1).val = (y 1).val; omega

/-- the second layer's weight's -/
private theorem blk9_eq (c : Dev nD) (t : Fin cfg0.N) : iblk0 V c 9 t = V c main_arg7 := by
  obtain ⟨-, -, -, -, ⟨e4a, e4b⟩, ⟨e5a, e5b⟩, ⟨e6a, e6b⟩, ⟨e7a, e7b⟩, ⟨e8a, e8b⟩, ⟨e9a, e9b⟩, ⟨e10a, e10b⟩, -⟩ := idx_facts t
  funext y
  show V c main_arg7 (((cfg0.win 9).blk t).view.emb y) = V c main_arg7 y
  refine congrArg (V c main_arg7) (funext fun a => Fin.ext ?_)
  match a with
  | ⟨0, _⟩ => show win0_9.index t (0 : Fin 2) * 256 + 1 * (y 0).val = (y 0).val; omega
  | ⟨1, _⟩ => show win0_9.index t (1 : Fin 2) * 64 + 1 * (y 1).val = (y 1).val; omega

/-- and the second layer's bias row's. -/
private theorem blk10_eq (c : Dev nD) (t : Fin cfg0.N) : iblk0 V c 10 t = V c main_v11 := by
  obtain ⟨-, -, -, -, ⟨e4a, e4b⟩, ⟨e5a, e5b⟩, ⟨e6a, e6b⟩, ⟨e7a, e7b⟩, ⟨e8a, e8b⟩, ⟨e9a, e9b⟩, ⟨e10a, e10b⟩, -⟩ := idx_facts t
  funext y
  show V c main_v11 (((cfg0.win 10).blk t).view.emb y) = V c main_v11 y
  refine congrArg (V c main_v11) (funext fun a => Fin.ext ?_)
  match a with
  | ⟨0, _⟩ => show win0_10.index t (0 : Fin 2) * 1 + 1 * (y 0).val = (y 0).val; omega
  | ⟨1, _⟩ => show win0_10.index t (1 : Fin 2) * 64 + 1 * (y 1).val = (y 1).val; omega

/-! ### The row-indexed windows, and what a point writes back -/

/-- The edge perceptron at an index of one problem is the edge perceptron at an index of another with the same
    weights when the column is the same and the rows of the row-indexed inputs there agree. -/
private theorem edgeMlp_rows {R R' : Nat} (x0 x1 x2 : Cert.Spec.Arr2 R 64) (x3 : Cert.Spec.Arr2 R 10) (y0 y1 y2 : Cert.Spec.Arr2 R' 64)
    (y3 : Cert.Spec.Arr2 R' 10) (w0 w1 w2 : Cert.Spec.Arr2 64 256) (w3 : Cert.Spec.Arr2 10 256) (b : Cert.Spec.Arr2 1 256)
    (wb : Cert.Spec.Arr2 256 64) (bb : Cert.Spec.Arr2 1 64)
    (j : (⟨2, ![R, 64]⟩ : Shape).Idx) (j' : (⟨2, ![R', 64]⟩ : Shape).Idx) (hq : j' 1 = j 1)
    (h0 : ∀ i, x0 (ix2 (j 0) i) = y0 (ix2 (j' 0) i)) (h1 : ∀ i, x1 (ix2 (j 0) i) = y1 (ix2 (j' 0) i))
    (h2 : ∀ i, x2 (ix2 (j 0) i) = y2 (ix2 (j' 0) i)) (h3 : ∀ i, x3 (ix2 (j 0) i) = y3 (ix2 (j' 0) i)) :
    Cert.Spec.edgeMlp x0 x1 x2 x3 w0 w1 w2 w3 b wb bb j = Cert.Spec.edgeMlp y0 y1 y2 y3 w0 w1 w2 w3 b wb bb j' := by
  show Cert.Spec.edgeAt x0 x1 x2 x3 w0 w1 w2 w3 b wb bb (j 0) (j 1) = Cert.Spec.edgeAt y0 y1 y2 y3 w0 w1 w2 w3 b wb bb (j' 0) (j' 1)
  rw [hq]
  exact Cert.Spec.edgeAt_congr x0 x1 x2 x3 y0 y1 y2 y3 w0 w1 w2 w3 b wb bb (j 0) (j' 0) h0 h1 h2 h3 (j 1)

/-- WHAT POINT `t` WRITES BACK is block `t` of the edge perceptron of the arrays the region found. -/
private theorem flushed_eq (c : Dev nD) (t : Fin cfg0.N) :
    (dat0 (F := Ideal) V c).flushed 11 t = ((cfg0.win 11).blk t).view.read (Elt Ideal)
      (Cert.Spec.edgeMlp (V c main_arg1) (V c main_v4) (V c main_v5) (V c main_arg2) (V c main_v6) (V c main_v7)
          (V c main_v8) (V c main_v9) (V c main_v10) (V c main_arg7) (V c main_v11)) := by
  show (cfg0.win 11).cut (grid0.coords t) ((dat0 V c).after 11 t) = _
  rw [after0_11, out_eq, blk4_eq, blk5_eq, blk6_eq, blk7_eq, blk8_eq, blk9_eq, blk10_eq]
  obtain ⟨⟨e0a, e0b⟩, ⟨e1a, e1b⟩, ⟨e2a, e2b⟩, ⟨e3a, e3b⟩, -, -, -, -, -, -, -, ⟨e11a, e11b⟩⟩ := idx_facts t
  funext y
  refine edgeMlp_rows (R := 5000) (R' := 800000) (iblk0 V c 0 t) (iblk0 V c 1 t) (iblk0 V c 2 t) (iblk0 V c 3 t)
    (V c main_arg1) (V c main_v4) (V c main_v5) (V c main_arg2) (V c main_v6) (V c main_v7) (V c main_v8) (V c main_v9)
    (V c main_v10) (V c main_arg7) (V c main_v11) y (((cfg0.win 11).blk t).view.emb y) ?_ (fun i => ?_) (fun i => ?_)
    (fun i => ?_) (fun i => ?_)
  · exact Fin.ext (by show win0_11.index t (1 : Fin 2) * 64 + 1 * (y 1).val = (y 1).val; omega)
  · show V c main_arg1 (((cfg0.win 0).blk t).view.emb (ix2 (y 0) i)) = V c main_arg1 (ix2 (((cfg0.win 11).blk t).view.emb y 0) i)
    refine congrArg (V c main_arg1) (funext fun a => Fin.ext ?_)
    match a with
    | ⟨0, _⟩ => show win0_0.index t (0 : Fin 2) * 5000 + 1 * (y 0).val = win0_11.index t (0 : Fin 2) * 5000 + 1 * (y 0).val; omega
    | ⟨1, _⟩ => show win0_0.index t (1 : Fin 2) * 64 + 1 * i.val = i.val; omega
  · show V c main_v4 (((cfg0.win 1).blk t).view.emb (ix2 (y 0) i)) = V c main_v4 (ix2 (((cfg0.win 11).blk t).view.emb y 0) i)
    refine congrArg (V c main_v4) (funext fun a => Fin.ext ?_)
    match a with
    | ⟨0, _⟩ => show win0_1.index t (0 : Fin 2) * 5000 + 1 * (y 0).val = win0_11.index t (0 : Fin 2) * 5000 + 1 * (y 0).val; omega
    | ⟨1, _⟩ => show win0_1.index t (1 : Fin 2) * 64 + 1 * i.val = i.val; omega
  · show V c main_v5 (((cfg0.win 2).blk t).view.emb (ix2 (y 0) i)) = V c main_v5 (ix2 (((cfg0.win 11).blk t).view.emb y 0) i)
    refine congrArg (V c main_v5) (funext fun a => Fin.ext ?_)
    match a with
    | ⟨0, _⟩ => show win0_2.index t (0 : Fin 2) * 5000 + 1 * (y 0).val = win0_11.index t (0 : Fin 2) * 5000 + 1 * (y 0).val; omega
    | ⟨1, _⟩ => show win0_2.index t (1 : Fin 2) * 64 + 1 * i.val = i.val; omega
  · show V c main_arg2 (((cfg0.win 3).blk t).view.emb (ix2 (y 0) i)) = V c main_arg2 (ix2 (((cfg0.win 11).blk t).view.emb y 0) i)
    refine congrArg (V c main_arg2) (funext fun a => Fin.ext ?_)
    match a with
    | ⟨0, _⟩ => show win0_3.index t (0 : Fin 2) * 5000 + 1 * (y 0).val = win0_11.index t (0 : Fin 2) * 5000 + 1 * (y 0).val; omega
    | ⟨1, _⟩ => show win0_3.index t (1 : Fin 2) * 10 + 1 * i.val = i.val; omega

/-! ### The blocks tile the result array -/

/-- An index of the result array is in point `t`'s block iff each coordinate is in the block's range on its axis. -/
private theorem mem_blk (t : Fin cfg0.N) (i : S800000x64.Idx) :
    i ∈ ((cfg0.win 11).blk t).view.set ↔ ∀ a : Fin 2, win0_11.index t a * S5000x64.size a ≤ (i a).val ∧ (i a).val < win0_11.index t a * S5000x64.size a + S5000x64.size a := by
  show i ∈ ((View.whole main_v12).slice (win0_11.rect t)).set ↔ _
  rw [View.set_slice_whole, Rect.mem_set_unit]
  exact Iff.rfl

/-- Every index of the result array lies in the block of the point its row falls in, `row / 5000`, and every
    point writes its block back. -/
private theorem cover (c : Dev nD) (i : ((cfg0.win 11).arr.view.loc (c.tc : Thread nD τ)).2.ty.Idx) :
    ∃ t : Fin cfg0.N, (cfg0.win 11).flush t = true ∧ i ∈ ((cfg0.win 11).blk t).view.set := by
  have hi0 : (i 0).val < 800000 := (i 0).isLt
  have hi1 : (i 1).val < 64 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨-, -, -, -, -, -, -, -, -, -, -, ⟨ea, eb⟩⟩ := idx_facts t
  refine ⟨t, flush0_11 t, ?_⟩
  rw [mem_blk]
  intro a
  match a with
  | ⟨0, _⟩ => show win0_11.index t (0 : Fin 2) * 5000 ≤ (i 0).val ∧ (i 0).val < win0_11.index t (0 : Fin 2) * 5000 + 5000; omega
  | ⟨1, _⟩ => show win0_11.index t (1 : Fin 2) * 64 ≤ (i 1).val ∧ (i 1).val < win0_11.index t (1 : Fin 2) * 64 + 64; omega

/-- After the region's last grid point the result array is the edge perceptron of the arrays the region found. -/
theorem region0_array (c : Dev nD) :
    (dat0 (F := Ideal) V c).arrAt 11 cfg0.N
      = Cert.Spec.edgeMlp (V c main_arg1) (V c main_v4) (V c main_v5) (V c main_arg2) (V c main_v6) (V c main_v7)
          (V c main_v8) (V c main_v9) (V c main_v10) (V c main_arg7) (V c main_v11) :=
  (dat0 (F := Ideal) V c).arrAt_eq_of_cover 11
    (Cert.Spec.edgeMlp (V c main_arg1) (V c main_v4) (V c main_v5) (V c main_arg2) (V c main_v6) (V c main_v7)
      (V c main_v8) (V c main_v9) (V c main_v10) (V c main_arg7) (V c main_v11))
    (fun t _ => flushed_eq V c t) (cover c)

end Cert.KernelIdeal.EdgeValue

end
-- ==== Proof.NodeValue.lean ====
/-
  What the node kernel leaves in its result array: the node perceptron of its seven input arrays, whole.

  The body's one stored block is a chain of elementwise operations, two products into a zero accumulator per layer
  and two bias rows spread over the rows; read at an index it is the perceptron's formula at 5000 rows. A row of the
  result reads only the same row of the two feature arrays, the result's blocks tile its array by rows, and the
  weight and bias windows are whole, so block `t` of the result is block `t` of the formula at the whole arrays.
-/
import proofs.«424888_j18013092840061_1_alg».proof.Proof.Gen.KernelIdeal.Frame
import proofs.«424888_j18013092840061_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-! ## The zero offsets -/

/-- The offsets of a whole-buffer rectangle are zero on both axes. -/
private theorem hz : (![0, 0] : Fin 2 → Nat) = fun _ => 0 := funext fun a => by fin_cases a <;> rfl

/-! ## The first layer's product: rows of 64 features against a 64 × 256 weight -/

/-- The left operand's row coordinate is the result's row. -/
private theorem lhs_hidden_0 (i : S5000x256.Idx) (q : dot_S5000x64_S64x256_S5000x256_1_0_0_1_n_n.contr.Idx) :
    (dot_S5000x64_S64x256_S5000x256_1_0_0_1_n_n.lhsIdx i q 0).val = (i 0).val := by
  unfold DotDims.lhsIdx
  rw [dif_neg (show ¬(0 : Fin S5000x64.rank) ∈ dot_S5000x64_S64x256_S5000x256_1_0_0_1_n_n.lhsBatch by decide), dif_pos (show (0 : Fin S5000x64.rank) ∈ dot_S5000x64_S64x256_S5000x256_1_0_0_1_n_n.lhsNonContracting by decide)]
  rfl
/-- The left operand's column coordinate is the contraction index. -/
private theorem lhs_hidden_1 (i : S5000x256.Idx) (q : dot_S5000x64_S64x256_S5000x256_1_0_0_1_n_n.contr.Idx) :
    (dot_S5000x64_S64x256_S5000x256_1_0_0_1_n_n.lhsIdx i q 1).val = (q ⟨0, by decide⟩).val :=
  dot_S5000x64_S64x256_S5000x256_1_0_0_1_n_n.lhsIdx_val_of_single rfl i q
/-- The right operand's row coordinate is the contraction index. -/
private theorem rhs_hidden_0 (i : S5000x256.Idx) (q : dot_S5000x64_S64x256_S5000x256_1_0_0_1_n_n.contr.Idx) :
    (dot_S5000x64_S64x256_S5000x256_1_0_0_1_n_n.rhsIdx i q 0).val = (q ⟨0, by decide⟩).val :=
  dot_S5000x64_S64x256_S5000x256_1_0_0_1_n_n.rhsIdx_val_of_single rfl i q
/-- The right operand's column coordinate is the result's column. -/
private theorem rhs_hidden_1 (i : S5000x256.Idx) (q : dot_S5000x64_S64x256_S5000x256_1_0_0_1_n_n.contr.Idx) :
    (dot_S5000x64_S64x256_S5000x256_1_0_0_1_n_n.rhsIdx i q 1).val = (i 1).val := by
  unfold DotDims.rhsIdx
  rw [dif_neg (show ¬(1 : Fin S64x256.rank) ∈ dot_S5000x64_S64x256_S5000x256_1_0_0_1_n_n.rhsBatch by decide), dif_pos (show (1 : Fin S64x256.rank) ∈ dot_S5000x64_S64x256_S5000x256_1_0_0_1_n_n.rhsNonContracting by decide)]
  rfl

/-- A piece's product into the zero accumulator, at row `p` and hidden unit `k`: the sum over the 64 features. -/
private theorem pieceProduct_apply {φ₁ φ₂ : FTy} (x : FVec Ideal S5000x64 φ₁) (w : FVec Ideal S64x256 φ₂) (p : Fin 5000) (k : Fin 256) :
    matmul dot_S5000x64_S64x256_S5000x256_1_0_0_1_n_n none x w (constant (F := Ideal) S5000x256 .f32 0x00000000#32) (ix2 p k)
      = ∑ i : Fin 64, x (ix2 p i) * w (ix2 i k) := by
  simp only [matmul]
  rw [Ideal.matmul_constant_zero_apply, ← Equiv.sum_comp (contrEquiv1 dot_S5000x64_S64x256_S5000x256_1_0_0_1_n_n 64 rfl rfl).symm]
  refine Finset.sum_congr rfl fun i _ => ?_
  have hk := contrEquiv1_symm_val dot_S5000x64_S64x256_S5000x256_1_0_0_1_n_n 64 rfl rfl i
  have el : dot_S5000x64_S64x256_S5000x256_1_0_0_1_n_n.lhsIdx (ix2 p k) ((contrEquiv1 dot_S5000x64_S64x256_S5000x256_1_0_0_1_n_n 64 rfl rfl).symm i) = ix2 p i := funext fun a => Fin.ext (by
    match a with
    | ⟨0, _⟩ => exact lhs_hidden_0 _ _
    | ⟨1, _⟩ => exact (lhs_hidden_1 _ _).trans hk)
  have er : dot_S5000x64_S64x256_S5000x256_1_0_0_1_n_n.rhsIdx (ix2 p k) ((contrEquiv1 dot_S5000x64_S64x256_S5000x256_1_0_0_1_n_n 64 rfl rfl).symm i) = ix2 i k := funext fun a => Fin.ext (by
    match a with
    | ⟨0, _⟩ => exact (rhs_hidden_0 _ _).trans hk
    | ⟨1, _⟩ => exact rhs_hidden_1 _ _)
  rw [el, er]

/-! ## The second layer's product: rows of 256 hidden units against a 256 × 64 weight -/

/-- The left operand's row coordinate is the result's row. -/
private theorem lhs_out_0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
/-- The left operand's column coordinate is the contraction index. -/
private theorem lhs_out_1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
/-- The right operand's row coordinate is the contraction index. -/
private theorem rhs_out_0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
/-- The right operand's column coordinate is the result's column. -/
private theorem rhs_out_1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- The hidden rows' product into the zero accumulator, at row `p` and output feature `q`: the sum over the 256 hidden units. -/
private theorem hiddenProduct_apply {φ₁ φ₂ : FTy} (h : FVec Ideal S5000x256 φ₁) (w : FVec Ideal S256x64 φ₂) (p : Fin 5000) (q : Fin 64) :
    matmul dot_S5000x256_S256x64_S5000x64_1_0_0_1_n_n none h w (constant (F := Ideal) S5000x64 .f32 0x00000000#32) (ix2 p q)
      = ∑ k : Fin 256, h (ix2 p k) * w (ix2 k q) := by
  simp only [matmul]
  rw [Ideal.matmul_constant_zero_apply, ← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have el : dot_S5000x256_S256x64_S5000x64_1_0_0_1_n_n.lhsIdx (ix2 p q) ((contrEquiv1 dot_S5000x256_S256x64_S5000x64_1_0_0_1_n_n 256 rfl rfl).symm k) = ix2 p k := funext fun a => Fin.ext (by
    match a with
    | ⟨0, _⟩ => exact lhs_out_0 _ _
    | ⟨1, _⟩ => exact (lhs_out_1 _ _).trans hk)
  have er : dot_S5000x256_S256x64_S5000x64_1_0_0_1_n_n.rhsIdx (ix2 p q) ((contrEquiv1 dot_S5000x256_S256x64_S5000x64_1_0_0_1_n_n 256 rfl rfl).symm k) = ix2 k q := funext fun a => Fin.ext (by
    match a with
    | ⟨0, _⟩ => exact (rhs_out_0 _ _).trans hk
    | ⟨1, _⟩ => exact rhs_out_1 _ _)
  rw [el, er]

/-! ## The bias rows, spread over the block's rows -/

/-- The hidden bias row spread over 5000 rows reads the row's entry at the column. -/
private theorem hiddenBias_apply {α : Type} (b : S1x256.Idx → α) (p : Fin 5000) (k : Fin 256) :
    broadcastTo S5000x256 b broadcasts_S1x256_S5000x256 (ix2 p k) = b (ix2 0 k) :=
  broadcastTo_apply b broadcasts_S1x256_S5000x256 (ix2 p k) (ix2 0 k) (fun a => by
    match a with
    | ⟨0, _⟩ => rfl
    | ⟨1, _⟩ => rfl)

/-- The output bias row spread over 5000 rows reads the row's entry at the column. -/
private theorem outBias_apply {α : Type} (b : S1x64.Idx → α) (p : Fin 5000) (q : Fin 64) :
    broadcastTo S5000x64 b broadcasts_S1x64_S5000x64 (ix2 p q) = b (ix2 0 q) :=
  broadcastTo_apply b broadcasts_S1x64_S5000x64 (ix2 p q) (ix2 0 q) (fun a => by
    match a with
    | ⟨0, _⟩ => rfl
    | ⟨1, _⟩ => rfl)

/-! ## The body's result block is the node perceptron of its loaded blocks -/

/-- What the body stores, as a function of the seven blocks it loads: the node perceptron at 5000 rows. -/
private theorem block_eq (x0 x1 : Vec Ideal S5000x64 .f32) (w0 w1 : Vec Ideal S64x256 .f32) (b : Vec Ideal S1x256 .f32)
    (wb : Vec Ideal S256x64 .f32) (bb : Vec Ideal S1x64 .f32) :
    out1_7 (F := Ideal) x0 x1 w0 w1 b wb bb = Cert.Spec.nodeMlp x0 x1 w0 w1 b wb bb := by
  unfold out1_7
  rw [View.canon_unit_zero hz]
  simp only [View.ld_unit_zero (S := S5000x64) hz, View.ld_unit_zero (S := S64x256) hz, View.ld_unit_zero (S := S1x256) hz,
    View.ld_unit_zero (S := S256x64) hz, View.ld_unit_zero (S := S1x64) hz]
  funext j
  obtain ⟨p, q, rfl⟩ : ∃ (p : Fin 5000) (q : Fin 64), j = ix2 p q := ⟨j 0, j 1, eq_ix2 j⟩
  unfold k1_pay1
  simp only [shapeCast_self]
  rw [addf_apply, addf_apply, hiddenProduct_apply, outBias_apply]
  show _ = Cert.Spec.nodeAt x0 x1 w0 w1 b wb bb p q
  unfold Cert.Spec.nodeAt
  refine congrArg (x0 (ix2 p q) + ·) (congrArg (· + bb (ix2 0 q)) (Finset.sum_congr rfl fun k _ => ?_))
  rw [truncf_apply, truncf_apply, maximumf_apply, addf_apply, addf_apply, pieceProduct_apply, pieceProduct_apply,
    hiddenBias_apply, broadcast_apply]
  simp only [truncf_apply, Ideal.ofBits_def, Ideal.ofBits_zero_f32]
  rfl

/-! ## From the blocks to the array -/

/-- The printed index maps, decided over the ten grid points: the row-indexed windows (both feature pieces and the
    result) sit at block row `t`, block column 0; the weight and bias windows at block (0, 0). -/
private theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The first piece's weight window is whole: its block at any point is the array. -/
private theorem weight0_block (c : Dev nD) (t : Fin cfg1.N) : (iblk1 V c 2 t : S64x256.Idx → EReal) = V c main_v19 := by
  obtain ⟨-, -, -, -, e0, e1, -⟩ := idx_facts t
  funext z
  show V c main_v19 (((cfg1.win 2).blk t).view.emb z) = V c main_v19 z
  refine congrArg _ (funext fun a => Fin.ext ?_)
  match a with
  | ⟨0, _⟩ => show win1_2.index t (0 : Fin 2) * 64 + 1 * (z 0).val = (z 0).val; omega
  | ⟨1, _⟩ => show win1_2.index t (1 : Fin 2) * 256 + 1 * (z 1).val = (z 1).val; omega

/-- The second piece's weight window is whole. -/
private theorem weight1_block (c : Dev nD) (t : Fin cfg1.N) : (iblk1 V c 3 t : S64x256.Idx → EReal) = V c main_v20 := by
  obtain ⟨-, -, -, -, -, -, e0, e1, -⟩ := idx_facts t
  funext z
  show V c main_v20 (((cfg1.win 3).blk t).view.emb z) = V c main_v20 z
  refine congrArg _ (funext fun a => Fin.ext ?_)
  match a with
  | ⟨0, _⟩ => show win1_3.index t (0 : Fin 2) * 64 + 1 * (z 0).val = (z 0).val; omega
  | ⟨1, _⟩ => show win1_3.index t (1 : Fin 2) * 256 + 1 * (z 1).val = (z 1).val; omega

/-- The hidden bias row's window is whole. -/
private theorem hiddenBias_block (c : Dev nD) (t : Fin cfg1.N) : (iblk1 V c 4 t : S1x256.Idx → EReal) = V c main_v21 := by
  obtain ⟨-, -, -, -, -, -, -, -, e0, e1, -⟩ := idx_facts t
  funext z
  show V c main_v21 (((cfg1.win 4).blk t).view.emb z) = V c main_v21 z
  refine congrArg _ (funext fun a => Fin.ext ?_)
  match a with
  | ⟨0, _⟩ => show win1_4.index t (0 : Fin 2) * 1 + 1 * (z 0).val = (z 0).val; omega
  | ⟨1, _⟩ => show win1_4.index t (1 : Fin 2) * 256 + 1 * (z 1).val = (z 1).val; omega

/-- The second layer's weight window is whole. -/
private theorem outWeight_block (c : Dev nD) (t : Fin cfg1.N) : (iblk1 V c 5 t : S256x64.Idx → EReal) = V c main_arg11 := by
  obtain ⟨-, -, -, -, -, -, -, -, -, -, e0, e1, -⟩ := idx_facts t
  funext z
  show V c main_arg11 (((cfg1.win 5).blk t).view.emb z) = V c main_arg11 z
  refine congrArg _ (funext fun a => Fin.ext ?_)
  match a with
  | ⟨0, _⟩ => show win1_5.index t (0 : Fin 2) * 256 + 1 * (z 0).val = (z 0).val; omega
  | ⟨1, _⟩ => show win1_5.index t (1 : Fin 2) * 64 + 1 * (z 1).val = (z 1).val; omega

/-- The output bias row's window is whole. -/
private theorem outBias_block (c : Dev nD) (t : Fin cfg1.N) : (iblk1 V c 6 t : S1x64.Idx → EReal) = V c main_v22 := by
  obtain ⟨-, -, -, -, -, -, -, -, -, -, -, -, e0, e1, -⟩ := idx_facts t
  funext z
  show V c main_v22 (((cfg1.win 6).blk t).view.emb z) = V c main_v22 z
  refine congrArg _ (funext fun a => Fin.ext ?_)
  match a with
  | ⟨0, _⟩ => show win1_6.index t (0 : Fin 2) * 1 + 1 * (z 0).val = (z 0).val; omega
  | ⟨1, _⟩ => show win1_6.index t (1 : Fin 2) * 64 + 1 * (z 1).val = (z 1).val; omega

/-- What point `t` writes back is block `t` of the node perceptron of the arrays the region found: the weight and bias
    blocks are the arrays, and row `p` of a feature block is row `t · 5000 + p` of its array, which is the row the result's
    block places it at. -/
private theorem flushed_eq (c : Dev nD) (t : Fin cfg1.N) :
    (dat1 (F := Ideal) V c).flushed 7 t = ((cfg1.win 7).blk t).view.read (Elt Ideal)
      (Cert.Spec.nodeMlp (V c main_arg0) (V c main_v18) (V c main_v19) (V c main_v20) (V c main_v21) (V c main_arg11)
        (V c main_v22)) := by
  show (cfg1.win 7).cut (grid1.coords t) ((dat1 V c).after 7 t) = _
  rw [after1_7, block_eq, weight0_block, weight1_block, hiddenBias_block, outWeight_block, outBias_block]
  obtain ⟨a0, a1, b0, b1, -, -, -, -, -, -, -, -, -, -, r0, r1⟩ := idx_facts t
  funext y
  have hq : ((cfg1.win 7).blk t).view.emb y 1 = y 1 := Fin.ext (by
    show win1_7.index t (1 : Fin 2) * 64 + 1 * (y 1).val = (y 1).val; omega)
  show Cert.Spec.nodeAt (iblk1 V c 0 t) (iblk1 V c 1 t) (V c main_v19) (V c main_v20) (V c main_v21) (V c main_arg11) (V c main_v22) (y 0) (y 1)
    = Cert.Spec.nodeAt (V c main_arg0) (V c main_v18) (V c main_v19) (V c main_v20) (V c main_v21) (V c main_arg11) (V c main_v22)
        (((cfg1.win 7).blk t).view.emb y 0) (((cfg1.win 7).blk t).view.emb y 1)
  rw [hq]
  refine Cert.Spec.nodeAt_congr _ _ _ _ _ _ _ _ _ _ _ (fun i => ?_) (fun i => ?_) _
  · show V c main_arg0 (((cfg1.win 0).blk t).view.emb (ix2 (y 0) i)) = V c main_arg0 _
    refine congrArg _ (funext fun a => Fin.ext ?_)
    match a with
    | ⟨0, _⟩ => show win1_0.index t (0 : Fin 2) * 5000 + 1 * (y 0).val = win1_7.index t (0 : Fin 2) * 5000 + 1 * (y 0).val; omega
    | ⟨1, _⟩ => show win1_0.index t (1 : Fin 2) * 64 + 1 * i.val = i.val; omega
  · show V c main_v18 (((cfg1.win 1).blk t).view.emb (ix2 (y 0) i)) = V c main_v18 _
    refine congrArg _ (funext fun a => Fin.ext ?_)
    match a with
    | ⟨0, _⟩ => show win1_1.index t (0 : Fin 2) * 5000 + 1 * (y 0).val = win1_7.index t (0 : Fin 2) * 5000 + 1 * (y 0).val; omega
    | ⟨1, _⟩ => show win1_1.index t (1 : Fin 2) * 64 + 1 * i.val = i.val; omega

/-- An index of the result array is in point `t`'s block iff each coordinate is in the block's range on its axis. -/
private theorem mem_blk (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v23).slice (win1_7.rect t)).set ↔ _
  rw [View.set_slice_whole, Rect.mem_set_unit]
  exact Iff.rfl

/-- Every index of the result array lies in the block of the point its row falls in: row `r` in point `r / 5000`. -/
private theorem cover (i : S50000x64.Idx) :
    ∃ t : Fin cfg1.N, (cfg1.win 7).flush t = true ∧ i ∈ ((cfg1.win 7).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, lt_of_lt_of_eq (by omega : (i 0).val / 5000 < 10) N_1.symm⟩, rfl⟩
  obtain ⟨-, -, -, -, -, -, -, -, -, -, -, -, -, -, r0, r1⟩ := idx_facts t
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 64 ≤ (i 1).val ∧ (i 1).val < win1_7.index t (1 : Fin 2) * 64 + 64; omega

/-- After the region's last grid point the result array is the node perceptron of the arrays the region found. -/
theorem region1_array (c : Dev nD) :
    (dat1 (F := Ideal) V c).arrAt 7 cfg1.N
      = Cert.Spec.nodeMlp (V c main_arg0) (V c main_v18) (V c main_v19) (V c main_v20) (V c main_v21) (V c main_arg11)
          (V c main_v22) :=
  (dat1 (F := Ideal) V c).arrAt_eq_of_cover 7
    (Cert.Spec.nodeMlp (V c main_arg0) (V c main_v18) (V c main_v19) (V c main_v20) (V c main_v21) (V c main_arg11) (V c main_v22))
    (fun t _ => flushed_eq V c t) cover

end Cert.KernelIdeal.NodeValue

end
-- ==== Proof.KValue.lean ====
/-
  The kernel program's two results as pure terms of the launch memory, at the ideal instance.

  The edge result is the edge perceptron of the edge features, the two filled gathers of the node features at the
  (wrapped) source and destination indices, the embedding, the four row blocks of the first-layer matrix, and the
  bias vectors as rows. The node result is the node perceptron of the node features and the scatter-sum of the
  norm-scaled edge result, with the two row blocks of its first-layer matrix. Each is read off the buffer contents
  at the region boundaries: a region's result array is the perceptron of the arrays the region found, and those
  arrays are what the host operations before the region computed from the launch memory.
-/
import proofs.«424888_j18013092840061_1_alg».proof.Proof.KHost
import proofs.«424888_j18013092840061_1_alg».proof.Proof.EdgeValue
import proofs.«424888_j18013092840061_1_alg».proof.Proof.NodeValue

set_option maxRecDepth 16384

noncomputable section

namespace Cert.KernelIdeal.KValue

open Cert.KernelIdeal Cert.KernelIdeal.Gen Cert.KernelIdeal.KTerms Cert.KernelIdeal.HostValue
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Buffer `r` of core `c` at launch. -/
abbrev A (r : Ref sig .tc) := W0 (F := Ideal) m ρ c (Proc.devRef .tc r)

/-! ## The argument arrays reach every boundary unchanged -/

theorem W1_keep (r : Ref sig .tc) (hr : r ∈ argRefs) : W1 m ρ c (Proc.devRef .tc r) = A m ρ c r :=
  (rows_keeps (W0 m ρ c)).at r hr
theorem W2_keep (r : Ref sig .tc) (hr : r ∈ argRefs) : W2 m ρ c (Proc.devRef .tc r) = A m ρ c r :=
  ((take_src_keeps (W1 m ρ c)).at r (List.mem_cons_of_mem _ hr)).trans (W1_keep m ρ c r hr)
theorem W3_keep (r : Ref sig .tc) (hr : r ∈ argRefs) : W3 m ρ c (Proc.devRef .tc r) = A m ρ c r :=
  ((take_dst_keeps (W2 m ρ c)).at r (List.mem_cons_of_mem _ (List.mem_cons_of_mem _ hr))).trans (W2_keep m ρ c r hr)
theorem W4_keep (r : Ref sig .tc) (hr : r ∈ argRefs) : W4 m ρ c (Proc.devRef .tc r) = A m ρ c r :=
  ((edge_w_keeps (W3 m ρ c)).at r
    (List.mem_cons_of_mem _ (List.mem_cons_of_mem _ (List.mem_cons_of_mem _ hr)))).trans (W3_keep m ρ c r hr)

/-! ## The index rows and the two gathers -/

theorem W1_src : W1 m ρ c (Proc.devRef .tc main_v1) = srcRow (A m ρ c main_arg4) := rows_src (W0 m ρ c)
theorem W1_dst : W1 m ρ c (Proc.devRef .tc main_v3) = dstRow (A m ρ c main_arg4) := rows_dst (W0 m ρ c)
theorem W2_v3 : W2 m ρ c (Proc.devRef .tc main_v3) = dstRow (A m ρ c main_arg4) :=
  ((take_src_keeps (W1 m ρ c)).at main_v3 List.mem_cons_self).trans (W1_dst m ρ c)
theorem W2_v4 : W2 m ρ c (Proc.devRef .tc main_v4)
    = takeRows (F := Ideal) (A m ρ c main_arg0) (wrapCol (srcRow (A m ρ c main_arg4))) := by
  refine (take_src (W1 m ρ c)).trans ?_
  rw [W1_keep m ρ c main_arg0 (by decide), W1_src]
theorem W3_v3 : W3 m ρ c (Proc.devRef .tc main_v3) = dstRow (A m ρ c main_arg4) :=
  ((take_dst_keeps (W2 m ρ c)).at main_v3 (List.mem_cons_of_mem _ List.mem_cons_self)).trans (W2_v3 m ρ c)
theorem W3_v4 : W3 m ρ c (Proc.devRef .tc main_v4)
    = takeRows (F := Ideal) (A m ρ c main_arg0) (wrapCol (srcRow (A m ρ c main_arg4))) :=
  ((take_dst_keeps (W2 m ρ c)).at main_v4 List.mem_cons_self).trans (W2_v4 m ρ c)
theorem W3_v5 : W3 m ρ c (Proc.devRef .tc main_v5)
    = takeRows (F := Ideal) (A m ρ c main_arg0) (wrapCol (dstRow (A m ρ c main_arg4))) := by
  refine (take_dst (W2 m ρ c)).trans ?_
  rw [W2_keep m ρ c main_arg0 (by decide), W2_v3]

/-! ## The edge region's entry contents -/

theorem W4_v3 : W4 m ρ c (Proc.devRef .tc main_v3) = dstRow (A m ρ c main_arg4) :=
  ((edge_w_keeps (W3 m ρ c)).at main_v3
    (List.mem_cons_of_mem _ (List.mem_cons_of_mem _ List.mem_cons_self))).trans (W3_v3 m ρ c)
theorem W4_v4 : W4 m ρ c (Proc.devRef .tc main_v4)
    = takeRows (F := Ideal) (A m ρ c main_arg0) (wrapCol (srcRow (A m ρ c main_arg4))) :=
  ((edge_w_keeps (W3 m ρ c)).at main_v4 (List.mem_cons_of_mem _ List.mem_cons_self)).trans (W3_v4 m ρ c)
theorem W4_v5 : W4 m ρ c (Proc.devRef .tc main_v5)
    = takeRows (F := Ideal) (A m ρ c main_arg0) (wrapCol (dstRow (A m ρ c main_arg4))) :=
  ((edge_w_keeps (W3 m ρ c)).at main_v5 List.mem_cons_self).trans (W3_v5 m ρ c)
theorem W4_v6 : W4 m ρ c (Proc.devRef .tc main_v6)
    = extractStridedSlice S64x256 ![0, 0] (A m ρ c main_arg5) slices_S202x256_S64x256_0_0 := by
  refine (edge_w0 (W3 m ρ c)).trans ?_; rw [W3_keep m ρ c main_arg5 (by decide)]
theorem W4_v7 : W4 m ρ c (Proc.devRef .tc main_v7)
    = extractStridedSlice S64x256 ![64, 0] (A m ρ c main_arg5) slices_S202x256_S64x256_64_0 := by
  refine (edge_w1 (W3 m ρ c)).trans ?_; rw [W3_keep m ρ c main_arg5 (by decide)]
theorem W4_v8 : W4 m ρ c (Proc.devRef .tc main_v8)
    = extractStridedSlice S64x256 ![128, 0] (A m ρ c main_arg5) slices_S202x256_S64x256_128_0 := by
  refine (edge_w2 (W3 m ρ c)).trans ?_; rw [W3_keep m ρ c main_arg5 (by decide)]
theorem W4_v9 : W4 m ρ c (Proc.devRef .tc main_v9)
    = extractStridedSlice S10x256 ![192, 0] (A m ρ c main_arg5) slices_S202x256_S10x256_192_0 := by
  refine (edge_w3 (W3 m ρ c)).trans ?_; rw [W3_keep m ρ c main_arg5 (by decide)]
theorem W4_v10 : W4 m ρ c (Proc.devRef .tc main_v10)
    = shapeCast S1x256 (A m ρ c main_arg6) shapeCasts_S256_S1x256 := by
  refine (edge_b (W3 m ρ c)).trans ?_; rw [W3_keep m ρ c main_arg6 (by decide)]
theorem W4_v11 : W4 m ρ c (Proc.devRef .tc main_v11)
    = shapeCast S1x64 (A m ρ c main_arg8) shapeCasts_S64_S1x64 := by
  refine (edge_bb (W3 m ρ c)).trans ?_; rw [W3_keep m ρ c main_arg8 (by decide)]

/-! ## The edge result -/

/-- The edge result as a term of the launch memory. -/
def heNew : FVec Ideal S800000x64 .f32 :=
  Cert.Spec.edgeMlp (A m ρ c main_arg1)
    (takeRows (F := Ideal) (A m ρ c main_arg0) (wrapCol (srcRow (A m ρ c main_arg4))))
    (takeRows (F := Ideal) (A m ρ c main_arg0) (wrapCol (dstRow (A m ρ c main_arg4))))
    (A m ρ c main_arg2)
    (extractStridedSlice S64x256 ![0, 0] (A m ρ c main_arg5) slices_S202x256_S64x256_0_0)
    (extractStridedSlice S64x256 ![64, 0] (A m ρ c main_arg5) slices_S202x256_S64x256_64_0)
    (extractStridedSlice S64x256 ![128, 0] (A m ρ c main_arg5) slices_S202x256_S64x256_128_0)
    (extractStridedSlice S10x256 ![192, 0] (A m ρ c main_arg5) slices_S202x256_S10x256_192_0)
    (shapeCast S1x256 (A m ρ c main_arg6) shapeCasts_S256_S1x256)
    (A m ρ c main_arg7)
    (shapeCast S1x64 (A m ρ c main_arg8) shapeCasts_S64_S1x64)

/-- At the edge region's exit its result array holds the edge result. -/
theorem W5_v12 : W5 m ρ c (Proc.devRef .tc main_v12) = heNew m ρ c := by
  refine (W5_arr m ρ c 11).trans ?_
  refine (Cert.KernelIdeal.EdgeValue.region0_array (V4 m ρ) c).trans ?_
  show Cert.Spec.edgeMlp (W4 m ρ c (Proc.devRef .tc main_arg1)) (W4 m ρ c (Proc.devRef .tc main_v4))
    (W4 m ρ c (Proc.devRef .tc main_v5)) (W4 m ρ c (Proc.devRef .tc main_arg2)) (W4 m ρ c (Proc.devRef .tc main_v6))
    (W4 m ρ c (Proc.devRef .tc main_v7)) (W4 m ρ c (Proc.devRef .tc main_v8)) (W4 m ρ c (Proc.devRef .tc main_v9))
    (W4 m ρ c (Proc.devRef .tc main_v10)) (W4 m ρ c (Proc.devRef .tc main_arg7)) (W4 m ρ c (Proc.devRef .tc main_v11)) = _
  rw [W4_keep m ρ c main_arg1 (by decide), W4_v4, W4_v5, W4_keep m ρ c main_arg2 (by decide), W4_v6, W4_v7, W4_v8, W4_v9,
    W4_v10, W4_keep m ρ c main_arg7 (by decide), W4_v11]
  rfl

/-- The second result of the program: the edge result, carried to the last boundary. -/
theorem he_new : W7 m ρ c (Proc.devRef .tc main_v12) = heNew m ρ c := by
  refine (W7_of_ne m ρ c main_v12 (by decide)).trans ?_
  refine ((node_keeps (W5 m ρ c)).at main_v12 List.mem_cons_self).trans ?_
  exact W5_v12 m ρ c

/-! ## The node region's entry contents and the node result -/

theorem W5_keep (r : Ref sig .tc) (hr : r ∈ argRefs) (hb : ∀ w, Pipeline.arrRef spec0 w ≠ r) :
    W5 m ρ c (Proc.devRef .tc r) = A m ρ c r :=
  (W5_of_ne m ρ c r hb).trans (W4_keep m ρ c r hr)
theorem W5_v3 : W5 m ρ c (Proc.devRef .tc main_v3) = dstRow (A m ρ c main_arg4) :=
  (W5_of_ne m ρ c main_v3 (by decide)).trans (W4_v3 m ρ c)
theorem W6_keep (r : Ref sig .tc) (hr : r ∈ argRefs) (hb : ∀ w, Pipeline.arrRef spec0 w ≠ r) :
    W6 m ρ c (Proc.devRef .tc r) = A m ρ c r :=
  ((node_keeps (W5 m ρ c)).at r (List.mem_cons_of_mem _ (List.mem_cons_of_mem _ hr))).trans (W5_keep m ρ c r hr hb)
theorem W6_v18 : W6 m ρ c (Proc.devRef .tc main_v18)
    = scatterSum (F := Ideal) (dstRow (A m ρ c main_arg4)) (heNew m ρ c) (A m ρ c main_arg3) := by
  refine (node_sum (W5 m ρ c)).trans ?_
  rw [W5_v3, W5_v12, W5_keep m ρ c main_arg3 (by decide) (by decide)]
theorem W6_v19 : W6 m ρ c (Proc.devRef .tc main_v19)
    = extractStridedSlice S64x256 ![0, 0] (A m ρ c main_arg9) slices_S128x256_S64x256_0_0 := by
  refine (node_w0 (W5 m ρ c)).trans ?_; rw [W5_keep m ρ c main_arg9 (by decide) (by decide)]
theorem W6_v20 : W6 m ρ c (Proc.devRef .tc main_v20)
    = extractStridedSlice S64x256 ![64, 0] (A m ρ c main_arg9) slices_S128x256_S64x256_64_0 := by
  refine (node_w1 (W5 m ρ c)).trans ?_; rw [W5_keep m ρ c main_arg9 (by decide) (by decide)]
theorem W6_v21 : W6 m ρ c (Proc.devRef .tc main_v21)
    = shapeCast S1x256 (A m ρ c main_arg10) shapeCasts_S256_S1x256 := by
  refine (node_b (W5 m ρ c)).trans ?_; rw [W5_keep m ρ c main_arg10 (by decide) (by decide)]
theorem W6_v22 : W6 m ρ c (Proc.devRef .tc main_v22)
    = shapeCast S1x64 (A m ρ c main_arg12) shapeCasts_S64_S1x64 := by
  refine (node_bb (W5 m ρ c)).trans ?_; rw [W5_keep m ρ c main_arg12 (by decide) (by decide)]

/-- The node result as a term of the launch memory. -/
def hnNew : FVec Ideal S50000x64 .f32 :=
  Cert.Spec.nodeMlp (A m ρ c main_arg0)
    (scatterSum (F := Ideal) (dstRow (A m ρ c main_arg4)) (heNew m ρ c) (A m ρ c main_arg3))
    (extractStridedSlice S64x256 ![0, 0] (A m ρ c main_arg9) slices_S128x256_S64x256_0_0)
    (extractStridedSlice S64x256 ![64, 0] (A m ρ c main_arg9) slices_S128x256_S64x256_64_0)
    (shapeCast S1x256 (A m ρ c main_arg10) shapeCasts_S256_S1x256)
    (A m ρ c main_arg11)
    (shapeCast S1x64 (A m ρ c main_arg12) shapeCasts_S64_S1x64)

/-- The first result of the program: at the node region's exit its result array holds the node result. -/
theorem hn_new : W7 m ρ c (Proc.devRef .tc main_v23) = hnNew m ρ c := by
  refine (W7_arr m ρ c 7).trans ?_
  refine (Cert.KernelIdeal.NodeValue.region1_array (V6 m ρ) c).trans ?_
  show Cert.Spec.nodeMlp (W6 m ρ c (Proc.devRef .tc main_arg0)) (W6 m ρ c (Proc.devRef .tc main_v18))
    (W6 m ρ c (Proc.devRef .tc main_v19)) (W6 m ρ c (Proc.devRef .tc main_v20)) (W6 m ρ c (Proc.devRef .tc main_v21))
    (W6 m ρ c (Proc.devRef .tc main_arg11)) (W6 m ρ c (Proc.devRef .tc main_v22)) = _
  rw [W6_keep m ρ c main_arg0 (by decide) (by decide), W6_v18, W6_v19, W6_v20, W6_v21,
    W6_keep m ρ c main_arg11 (by decide) (by decide), W6_v22]
  rfl

end Cert.KernelIdeal.KValue

end
-- ==== Proof.RefValue.lean ====
/-
  The reference's two results as the perceptrons of the specification: its product with the `202 × 256`
  (resp. `128 × 256`) matrix over rows laid end to end is the sum of the pieces' products with the matrix's
  row blocks, and its two additions of the residual and the bias associate the other way.
-/
import proofs.«424888_j18013092840061_1_alg».proof.Proof.Gen.ReferenceIdeal.Read
import proofs.«424888_j18013092840061_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic
open Idealize.ShloMosaic.ValueIdx
open Cert.Spec (Arr2)

/-! ## The index functions of the edge stages at an entry given by its coordinates -/

/-- The first layer's left operand is read at `(e, k')`: the entry's row, the contraction position as column. -/
private theorem lidx19 (e : Fin 800000) (k : Fin 256) (k' : Fin 202) :
    lidx_main_v19 (ix2 e k) k' = ix2 e k' :=
  funext fun a => Fin.ext (by match a with | ⟨0, _⟩ => rfl | ⟨1, _⟩ => rfl)

/-- The first layer's matrix is read at `(k', k)`. -/
private theorem ridx19 (e : Fin 800000) (k : Fin 256) (k' : Fin 202) :
    ridx_main_v19 (ix2 e k) k' = ix2 k' k :=
  funext fun a => Fin.ext (by match a with | ⟨0, _⟩ => rfl | ⟨1, _⟩ => rfl)

/-- The first bias, made a row and repeated down the rows, is read at the entry's column. -/
private theorem idx2021 (e : Fin 800000) (k : Fin 256) :
    idx_main_v20 (idx_main_v21 (ix2 e k)) = ix1 k :=
  funext fun a => Fin.ext (by match a with | ⟨0, _⟩ => rfl)

/-- The second layer's left operand is read at `(e, k)`. -/
private theorem lidx24 (e : Fin 800000) (q : Fin 64) (k : Fin 256) :
    lidx_main_v24 (ix2 e q) k = ix2 e k :=
  funext fun a => Fin.ext (by match a with | ⟨0, _⟩ => rfl | ⟨1, _⟩ => rfl)

/-- The second layer's matrix is read at `(k, q)`. -/
private theorem ridx24 (e : Fin 800000) (q : Fin 64) (k : Fin 256) :
    ridx_main_v24 (ix2 e q) k = ix2 k q :=
  funext fun a => Fin.ext (by match a with | ⟨0, _⟩ => rfl | ⟨1, _⟩ => rfl)

/-- The second bias is read at the entry's column. -/
private theorem idx2627 (e : Fin 800000) (q : Fin 64) :
    idx_main_v26 (idx_main_v27 (ix2 e q)) = ix1 q :=
  funext fun a => Fin.ext (by match a with | ⟨0, _⟩ => rfl)

/-! ## The joined edge row, read piece by piece -/

section Joined
variable (a0 : FVec Ideal S50000x64 .f32) (a1 : FVec Ideal S800000x64 .f32) (a2 : FVec Ideal S800000x10 .f32)
  (a4 : IVec S2x800000 32) (e : Fin 800000)

/-- Columns 0 to 63 of the joined row are the edge features. -/
private theorem v18_at0 (i : Fin 64) :
    val_main_v18 (F := Ideal) a0 a1 a2 a4 (ix2 e (⟨i.val, by omega⟩ : Fin 202)) = a1 (ix2 e i) := by
  unfold val_main_v18
  exact concatenate_apply_piece (1 : Fin S800000x202.rank) _ _ _ 0 (by simp) S800000x64 a1 rfl rfl 0 rfl (ix2 e i)
    (fun b => match b with | ⟨0, _⟩ => fun _ => rfl | ⟨1, _⟩ => fun h => absurd rfl h)
    (Nat.zero_add _)

/-- Columns 64 to 127 are the first gathered array. -/
private theorem v18_at1 (i : Fin 64) :
    val_main_v18 (F := Ideal) a0 a1 a2 a4 (ix2 e (⟨64 + i.val, by omega⟩ : Fin 202))
      = val_main_v10 (F := Ideal) a0 a4 (ix2 e i) := by
  unfold val_main_v18
  exact concatenate_apply_piece (1 : Fin S800000x202.rank) _ _ _ 1 (by simp) S800000x64
    (val_main_v10 (F := Ideal) a0 a4) rfl rfl 64 rfl (ix2 e i)
    (fun b => match b with | ⟨0, _⟩ => fun _ => rfl | ⟨1, _⟩ => fun h => absurd rfl h)
    rfl

/-- Columns 128 to 191 are the second gathered array. -/
private theorem v18_at2 (i : Fin 64) :
    val_main_v18 (F := Ideal) a0 a1 a2 a4 (ix2 e (⟨128 + i.val, by omega⟩ : Fin 202))
      = val_main_v17 (F := Ideal) a0 a4 (ix2 e i) := by
  unfold val_main_v18
  exact concatenate_apply_piece (1 : Fin S800000x202.rank) _ _ _ 2 (by simp) S800000x64
    (val_main_v17 (F := Ideal) a0 a4) rfl rfl 128 rfl (ix2 e i)
    (fun b => match b with | ⟨0, _⟩ => fun _ => rfl | ⟨1, _⟩ => fun h => absurd rfl h)
    rfl

/-- Columns 192 to 201 are the embedding. -/
private theorem v18_at3 (i : Fin 10) :
    val_main_v18 (F := Ideal) a0 a1 a2 a4 (ix2 e (⟨192 + i.val, by omega⟩ : Fin 202)) = a2 (ix2 e i) := by
  unfold val_main_v18
  exact concatenate_apply_piece (1 : Fin S800000x202.rank) _ _ _ 3 (by simp) S800000x10 a2 rfl rfl 192 rfl (ix2 e i)
    (fun b => match b with | ⟨0, _⟩ => fun _ => rfl | ⟨1, _⟩ => fun h => absurd rfl h)
    rfl

end Joined

/-- The edge hidden layer: the product of the joined row with the `202 × 256` matrix splits along
    `202 = 64 + 64 + 64 + 10` into the four pieces' products with the matrix's row blocks; then the bias and
    the maximum with the zero literal, which is the real `0`. -/
private theorem edge_hid (a0 : FVec Ideal S50000x64 .f32) (a1 : FVec Ideal S800000x64 .f32)
    (a2 : FVec Ideal S800000x10 .f32) (a4 : IVec S2x800000 32) (a5 : FVec Ideal S202x256 .f32)
    (a6 : FVec Ideal S256 .f32)
    (w0 w1 w2 : Arr2 64 256) (w3 : Arr2 10 256) (b : Arr2 1 256)
    (hw0 : ∀ (i : Fin 64) (k : Fin 256), w0 (ix2 i k) = a5 (ix2 (⟨i.val, by omega⟩ : Fin 202) k))
    (hw1 : ∀ (i : Fin 64) (k : Fin 256), w1 (ix2 i k) = a5 (ix2 (⟨64 + i.val, by omega⟩ : Fin 202) k))
    (hw2 : ∀ (i : Fin 64) (k : Fin 256), w2 (ix2 i k) = a5 (ix2 (⟨128 + i.val, by omega⟩ : Fin 202) k))
    (hw3 : ∀ (i : Fin 10) (k : Fin 256), w3 (ix2 i k) = a5 (ix2 (⟨192 + i.val, by omega⟩ : Fin 202) k))
    (hb : ∀ k : Fin 256, b (ix2 0 k) = a6 (ix1 k)) (e : Fin 800000) (k : Fin 256) :
    val_main_v23 (F := Ideal) a0 a1 a2 a4 a5 a6 (ix2 e k)
      = Cert.Spec.edgeHid a1 (val_main_v10 (F := Ideal) a0 a4) (val_main_v17 (F := Ideal) a0 a4) a2
          w0 w1 w2 w3 b e k := by
  rw [val_main_v23_apply, val_main_v22_apply, val_main_v19_apply, val_main_v21_apply, val_main_v20_apply,
    val_main_call0_v0_apply, val_main_call0_cst_apply, Ideal.maximumf_def, Ideal.addf_def, Ideal.ofBits_def,
    Ideal.ofBits_zero_f32, idx2021]
  simp only [lidx19, ridx19]
  rw [Cert.Spec.sum_202]
  simp only [v18_at0, v18_at1, v18_at2, v18_at3]
  unfold Cert.Spec.edgeHid
  simp only [hw0, hw1, hw2, hw3, hb]

/-- The reference's edge result is the edge perceptron of the edge features, the two gathered node-feature
    arrays and the embedding, for any weight pieces `w₀ … w₃` that are the row blocks of the first-layer matrix
    and bias rows `b`, `bb` that are the bias vectors. -/
theorem he_new_eq (a0 : FVec Ideal S50000x64 .f32) (a1 : FVec Ideal S800000x64 .f32) (a2 : FVec Ideal S800000x10 .f32)
    (a4 : IVec S2x800000 32) (a5 : FVec Ideal S202x256 .f32) (a6 : FVec Ideal S256 .f32) (a7 : FVec Ideal S256x64 .f32)
    (a8 : FVec Ideal S64 .f32)
    (w0 w1 w2 : Arr2 64 256) (w3 : Arr2 10 256) (b : Arr2 1 256) (bb : Arr2 1 64)
    (hw0 : ∀ (i : Fin 64) (k : Fin 256), w0 (ix2 i k) = a5 (ix2 (⟨i.val, by omega⟩ : Fin 202) k))
    (hw1 : ∀ (i : Fin 64) (k : Fin 256), w1 (ix2 i k) = a5 (ix2 (⟨64 + i.val, by omega⟩ : Fin 202) k))
    (hw2 : ∀ (i : Fin 64) (k : Fin 256), w2 (ix2 i k) = a5 (ix2 (⟨128 + i.val, by omega⟩ : Fin 202) k))
    (hw3 : ∀ (i : Fin 10) (k : Fin 256), w3 (ix2 i k) = a5 (ix2 (⟨192 + i.val, by omega⟩ : Fin 202) k))
    (hb : ∀ k : Fin 256, b (ix2 0 k) = a6 (ix1 k)) (hbb : ∀ q : Fin 64, bb (ix2 0 q) = a8 (ix1 q)) :
    val_main_v28 (F := Ideal) a0 a1 a2 a4 a5 a6 a7 a8
      = Cert.Spec.edgeMlp a1 (val_main_v10 (F := Ideal) a0 a4) (val_main_v17 (F := Ideal) a0 a4) a2 w0 w1 w2 w3 b a7 bb := by
  funext j
  obtain ⟨e, q, rfl⟩ : ∃ (e : Fin 800000) (q : Fin 64), j = ix2 e q := ⟨j 0, j 1, eq_ix2 j⟩
  show _ = Cert.Spec.edgeAt _ _ _ _ _ _ _ _ _ _ _ e q
  rw [val_main_v28_apply, val_main_v25_apply, val_main_v24_apply, val_main_v27_apply, val_main_v26_apply,
    Ideal.addf_def, Ideal.addf_def, idx2627]
  simp only [lidx24, ridx24, edge_hid a0 a1 a2 a4 a5 a6 w0 w1 w2 w3 b hw0 hw1 hw2 hw3 hb]
  unfold Cert.Spec.edgeAt
  -- the reference adds `(x + s) + b'`, the specification `x + (s + b')`
  rw [hbb, add_assoc]

/-! ## The node stages -/

private theorem lidx36 (r : Fin 50000) (k : Fin 256) (k' : Fin 128) :
    lidx_main_v36 (ix2 r k) k' = ix2 r k' :=
  funext fun a => Fin.ext (by match a with | ⟨0, _⟩ => rfl | ⟨1, _⟩ => rfl)

private theorem ridx36 (r : Fin 50000) (k : Fin 256) (k' : Fin 128) :
    ridx_main_v36 (ix2 r k) k' = ix2 k' k :=
  funext fun a => Fin.ext (by match a with | ⟨0, _⟩ => rfl | ⟨1, _⟩ => rfl)

private theorem idx3738 (r : Fin 50000) (k : Fin 256) :
    idx_main_v37 (idx_main_v38 (ix2 r k)) = ix1 k :=
  funext fun a => Fin.ext (by match a with | ⟨0, _⟩ => rfl)

private theorem lidx41 (r : Fin 50000) (q : Fin 64) (k : Fin 256) :
    lidx_main_v41 (ix2 r q) k = ix2 r k :=
  funext fun a => Fin.ext (by match a with | ⟨0, _⟩ => rfl | ⟨1, _⟩ => rfl)

private theorem ridx41 (r : Fin 50000) (q : Fin 64) (k : Fin 256) :
    ridx_main_v41 (ix2 r q) k = ix2 k q :=
  funext fun a => Fin.ext (by match a with | ⟨0, _⟩ => rfl | ⟨1, _⟩ => rfl)

private theorem idx4344 (r : Fin 50000) (q : Fin 64) :
    idx_main_v43 (idx_main_v44 (ix2 r q)) = ix1 q :=
  funext fun a => Fin.ext (by match a with | ⟨0, _⟩ => rfl)

section JoinedNode
variable (a0 : FVec Ideal S50000x64 .f32) (a1 : FVec Ideal S800000x64 .f32) (a2 : FVec Ideal S800000x10 .f32)
  (a3 : FVec Ideal S800000 .f32) (a4 : IVec S2x800000 32) (a5 : FVec Ideal S202x256 .f32) (a6 : FVec Ideal S256 .f32)
  (a7 : FVec Ideal S256x64 .f32) (a8 : FVec Ideal S64 .f32) (r : Fin 50000)

/-- Columns 0 to 63 of the joined node row are the node features. -/
private theorem v35_at0 (i : Fin 64) :
    val_main_v35 (F := Ideal) a0 a1 a2 a3 a4 a5 a6 a7 a8 (ix2 r (⟨i.val, by omega⟩ : Fin 128)) = a0 (ix2 r i) := by
  unfold val_main_v35
  exact concatenate_apply_piece (1 : Fin S50000x128.rank) _ _ _ 0 (by simp) S50000x64 a0 rfl rfl 0 rfl (ix2 r i)
    (fun b => match b with | ⟨0, _⟩ => fun _ => rfl | ⟨1, _⟩ => fun h => absurd rfl h)
    (Nat.zero_add _)

/-- Columns 64 to 127 are the scattered sums. -/
private theorem v35_at1 (i : Fin 64) :
    val_main_v35 (F := Ideal) a0 a1 a2 a3 a4 a5 a6 a7 a8 (ix2 r (⟨64 + i.val, by omega⟩ : Fin 128))
      = val_main_v34 (F := Ideal) a0 a1 a2 a3 a4 a5 a6 a7 a8 (ix2 r i) := by
  unfold val_main_v35
  exact concatenate_apply_piece (1 : Fin S50000x128.rank) _ _ _ 1 (by simp) S50000x64
    (val_main_v34 (F := Ideal) a0 a1 a2 a3 a4 a5 a6 a7 a8) rfl rfl 64 rfl (ix2 r i)
    (fun b => match b with | ⟨0, _⟩ => fun _ => rfl | ⟨1, _⟩ => fun h => absurd rfl h)
    rfl

end JoinedNode

/-- The node hidden layer: the product with the `128 × 256` matrix splits along `128 = 64 + 64`. -/
private theorem node_hid (a0 : FVec Ideal S50000x64 .f32) (a1 : FVec Ideal S800000x64 .f32)
    (a2 : FVec Ideal S800000x10 .f32) (a3 : FVec Ideal S800000 .f32) (a4 : IVec S2x800000 32)
    (a5 : FVec Ideal S202x256 .f32) (a6 : FVec Ideal S256 .f32) (a7 : FVec Ideal S256x64 .f32)
    (a8 : FVec Ideal S64 .f32) (a9 : FVec Ideal S128x256 .f32) (a10 : FVec Ideal S256 .f32)
    (w0 w1 : Arr2 64 256) (b : Arr2 1 256)
    (hw0 : ∀ (i : Fin 64) (k : Fin 256), w0 (ix2 i k) = a9 (ix2 (⟨i.val, by omega⟩ : Fin 128) k))
    (hw1 : ∀ (i : Fin 64) (k : Fin 256), w1 (ix2 i k) = a9 (ix2 (⟨64 + i.val, by omega⟩ : Fin 128) k))
    (hb : ∀ k : Fin 256, b (ix2 0 k) = a10 (ix1 k)) (r : Fin 50000) (k : Fin 256) :
    val_main_v40 (F := Ideal) a0 a1 a2 a3 a4 a5 a6 a7 a8 a9 a10 (ix2 r k)
      = Cert.Spec.nodeHid a0 (val_main_v34 (F := Ideal) a0 a1 a2 a3 a4 a5 a6 a7 a8) w0 w1 b r k := by
  rw [val_main_v40_apply, val_main_v39_apply, val_main_v36_apply, val_main_v38_apply, val_main_v37_apply,
    val_main_call1_v0_apply, val_main_call1_cst_apply, Ideal.maximumf_def, Ideal.addf_def, Ideal.ofBits_def,
    Ideal.ofBits_zero_f32, idx3738]
  simp only [lidx36, ridx36]
  rw [Cert.Spec.sum_128]
  simp only [v35_at0, v35_at1]
  unfold Cert.Spec.nodeHid
  simp only [hw0, hw1, hb]

/-- The reference's node result is the node perceptron of the node features and the scattered sums. -/
theorem hn_new_eq (a0 : FVec Ideal S50000x64 .f32) (a1 : FVec Ideal S800000x64 .f32) (a2 : FVec Ideal S800000x10 .f32)
    (a3 : FVec Ideal S800000 .f32) (a4 : IVec S2x800000 32) (a5 : FVec Ideal S202x256 .f32) (a6 : FVec Ideal S256 .f32)
    (a7 : FVec Ideal S256x64 .f32) (a8 : FVec Ideal S64 .f32) (a9 : FVec Ideal S128x256 .f32) (a10 : FVec Ideal S256 .f32)
    (a11 : FVec Ideal S256x64 .f32) (a12 : FVec Ideal S64 .f32)
    (w0 w1 : Arr2 64 256) (b : Arr2 1 256) (bb : Arr2 1 64)
    (hw0 : ∀ (i : Fin 64) (k : Fin 256), w0 (ix2 i k) = a9 (ix2 (⟨i.val, by omega⟩ : Fin 128) k))
    (hw1 : ∀ (i : Fin 64) (k : Fin 256), w1 (ix2 i k) = a9 (ix2 (⟨64 + i.val, by omega⟩ : Fin 128) k))
    (hb : ∀ k : Fin 256, b (ix2 0 k) = a10 (ix1 k)) (hbb : ∀ q : Fin 64, bb (ix2 0 q) = a12 (ix1 q)) :
    val_main_v45 (F := Ideal) a0 a1 a2 a3 a4 a5 a6 a7 a8 a9 a10 a11 a12
      = Cert.Spec.nodeMlp a0 (val_main_v34 (F := Ideal) a0 a1 a2 a3 a4 a5 a6 a7 a8) w0 w1 b a11 bb := by
  funext j
  obtain ⟨r, q, rfl⟩ : ∃ (r : Fin 50000) (q : Fin 64), j = ix2 r q := ⟨j 0, j 1, eq_ix2 j⟩
  show _ = Cert.Spec.nodeAt _ _ _ _ _ _ _ r q
  rw [val_main_v45_apply, val_main_v42_apply, val_main_v41_apply, val_main_v44_apply, val_main_v43_apply,
    Ideal.addf_def, Ideal.addf_def, idx4344]
  simp only [lidx41, ridx41, node_hid a0 a1 a2 a3 a4 a5 a6 a7 a8 a9 a10 w0 w1 b hw0 hw1 hb]
  unfold Cert.Spec.nodeAt
  rw [hbb, add_assoc]

end Cert.ReferenceIdeal.RefValue

end
-- ==== Proof.TakeFill.lean ====
/-
  Where every index lies in `[0, 50000)`, the kernel program's row gather fills no row: wrapping negative
  entries changes nothing, the range test passes in every row, and the select returns the plain gather.
  Also: the precondition's last conjunct says exactly that every entry of the index table lies in that range.
-/
import proofs.«424888_j18013092840061_1_alg».proof.Proof.KTerms
import proofs.«424888_j18013092840061_1_alg».proof.Pre_finite_inputs
import Idealize.ShloMosaic.Lib.ReduceAll
import Idealize.ShloMosaic.Lib.StableHlo.Predicate
import Idealize.ShloMosaic.Lib.ValueIdx
import Idealize.ShloMosaic.Lib.Pipeline.Value

noncomputable section

namespace Cert.KernelIdeal.TakeFill

open Cert.KernelIdeal Cert.KernelIdeal.Gen Cert.KernelIdeal.KTerms Idealize.ShloMosaic
open Idealize.ShloMosaic.ValueIdx

/-- An index word lies in the node range. -/
def InNodeRange (w : BitVec 32) : Prop := 0 ≤ w.toInt ∧ w.toInt < 50000

/-- A left fold by `and` over one-bit words that starts at 1 and meets only 1s comes out 1. -/
private theorem foldl_andi_all_one {ι : Type} (f : ι → BitVec 1) :
    ∀ (l : List ι) (init : BitVec 1), init = 1#1 → (∀ n ∈ l, f n = 1#1) →
      l.foldl (fun r n => IntOp.andi r (f n)) init = 1#1
  | [], init, hi, _ => hi
  | a :: l, init, hi, h => by
    rw [List.foldl_cons]
    refine foldl_andi_all_one f l _ ?_ (fun n hn => h n (List.mem_cons_of_mem _ hn))
    rw [hi, h a List.mem_cons_self]
    rfl

/-- A reduce by `and`, from the constant 1, of an array whose every element is 1 is 1 at every result index. -/
private theorem reduce_andi_of_all_one {s t : Shape} {axes : List (Fin s.rank)} (p : s.Idx → BitVec 1)
    (h : s.ReducesTo axes t) (hu : 0 < S_.numel) (hp : ∀ i, p i = 1#1) (j : t.Idx) :
    Host.reduce IntOp.andi p (constantI S_ 1 1#1) h hu j = 1#1 := by
  rw [Host.reduce_eq_foldl]
  exact foldl_andi_all_one p _ _ rfl (fun i _ => hp i)

/-- A word in the node range is not negative, so the wrap leaves it alone. -/
private theorem wrap_of_range {w : BitVec 32} (h : InNodeRange w) :
    Scalar.select (IntOp.cmpi .slt w 0#32) (IntOp.addi w 50000#32) w = w := by
  have hs : IntOp.cmpi .slt w 0#32 = 0#1 := by
    refine eq_zero_of_ne_one fun hc => ?_
    have hlt := IntOp.cmpi_slt.1 hc
    rw [show (0#32 : BitVec 32).toInt = 0 from by decide] at hlt
    exact absurd h.1 (by omega)
  rw [hs, select_zero]

/-- A word in the node range passes the test `0 ≤ w ≤ 49999`. -/
private theorem test_of_range {w : BitVec 32} (h : InNodeRange w) :
    IntOp.andi (IntOp.cmpi .sge w 0#32) (IntOp.cmpi .sle w 49999#32) = 1#1 := by
  refine IntOp.andi_eq_one.2 ⟨IntOp.cmpi_sge.2 ?_, IntOp.cmpi_sle.2 ?_⟩
  · rw [show (0#32 : BitVec 32).toInt = 0 from by decide]; exact h.1
  · rw [show (49999#32 : BitVec 32).toInt = 49999 from by decide]; have := h.2; omega

/-- With every index in range the range test of the wrapped column is 1 everywhere. -/
private theorem inRange_wrapCol (r : IVec S800000 32) (hr : ∀ e : S800000.Idx, InNodeRange (r e)) (j : S800000x64.Idx) :
    inRange (wrapCol r) j = 1#1 := by
  refine reduce_andi_of_all_one _ _ _ (fun i => ?_) _
  obtain ⟨e, he⟩ : ∃ e, wrapCol r i
      = Scalar.select (IntOp.cmpi .slt (r e) 0#32) (IntOp.addi (r e) 50000#32) (r e) := ⟨_, rfl⟩
  show IntOp.andi (IntOp.cmpi .sge (wrapCol r i) 0#32) (IntOp.cmpi .sle (wrapCol r i) 49999#32) = 1#1
  rw [he, wrap_of_range (hr e)]
  exact test_of_range (hr e)

/-- With every index in range the filling gather is the plain gather at the wrapped index column. -/
theorem takeRows_eq_gather {F : FTy → Type} [FloatOps F] (x : FVec F S50000x64 .f32) (r : IVec S800000 32)
    (hr : ∀ e : S800000.Idx, InNodeRange (r e)) :
    takeRows x (wrapCol r) = Host.gather gather_S50000x64_S800000x1_S800000x64_1_0_n_n_0_1_164 x (wrapCol r) := by
  funext j
  unfold takeRows
  rw [select_apply, inRange_wrapCol r hr j, select_one]

/-- Each of the two rows of an index table whose entries are all in range has all its entries in range. -/
theorem srcRow_range (a4 : IVec S2x800000 32) (h : ∀ i : S2x800000.Idx, InNodeRange (a4 i)) (e : S800000.Idx) :
    InNodeRange (srcRow a4 e) := by
  unfold srcRow shapeCast extractStridedSlice
  exact h _

theorem dstRow_range (a4 : IVec S2x800000 32) (h : ∀ i : S2x800000.Idx, InNodeRange (a4 i)) (e : S800000.Idx) :
    InNodeRange (dstRow a4 e) := by
  unfold dstRow shapeCast extractStridedSlice
  exact h _

/-- The scalar shape has one index. -/
private instance : Subsingleton (⟨0, ![]⟩ : Shape).Idx := ⟨fun a b => funext fun d => d.elim0⟩

/-- The precondition gives the range of every entry of the index table. -/
theorem range_of_pre [hP : Cert.Pre_finite_inputs.Facts]
    (a0 : FVec Ideal S50000x64 .f32) (a1 : FVec Ideal S800000x64 .f32) (a2 : FVec Ideal S800000x10 .f32)
    (a3 : FVec Ideal S800000 .f32) (a4 : IVec S2x800000 32) (a5 : FVec Ideal S202x256 .f32) (a6 : FVec Ideal S256 .f32)
    (a7 : FVec Ideal S256x64 .f32) (a8 : FVec Ideal S64 .f32) (a9 : FVec Ideal S128x256 .f32) (a10 : FVec Ideal S256 .f32)
    (a11 : FVec Ideal S256x64 .f32) (a12 : FVec Ideal S64 .f32)
    (hpre : Cert.Pre_finite_inputs.fn (F := Ideal) a0 a1 a2 a3 a4 a5 a6 a7 a8 a9 a10 a11 a12 = fun _ => 1#1) :
    ∀ i : S2x800000.Idx, InNodeRange (a4 i) := by
  intro i
  have h0 := congrFun hpre ix0
  -- the precondition's word is the `and` of the finiteness conjuncts with the range conjunct: keep the latter
  have h2 := (IntOp.andi_eq_one.1 h0).2
  -- the range conjunct is an `and`-reduce over every entry of the table
  have h3 := Host.reduce_andi_all _ _ _ _ _ h2 i
  have h4 : IntOp.andi (IntOp.cmpi .sge (a4 i) 0#32) (IntOp.cmpi .slt (a4 i) 50000#32) = 1#1 := h3
  obtain ⟨h5, h6⟩ := IntOp.andi_eq_one.1 h4
  have h7 := IntOp.cmpi_sge.1 h5
  have h8 := IntOp.cmpi_slt.1 h6
  rw [show (0#32 : BitVec 32).toInt = 0 from by decide] at h7
  rw [show (50000#32 : BitVec 32).toInt = 50000 from by decide] at h8
  exact ⟨h7, h8⟩

end Cert.KernelIdeal.TakeFill

end
-- ==== Proof.Pieces.lean ====
/-
  The weight pieces and bias rows the kernels are handed, read at an index: a slice of rows `[o, o + n)` of a
  matrix at `(i, k)` is the matrix at `(o + i, k)`, and a vector reshaped to one row reads the vector.
-/
import proofs.«424888_j18013092840061_1_alg».proof.Proof.KTerms
import Idealize.ShloMosaic.Lib.Pipeline.Value
import Idealize.ShloMosaic.Lib.ValueIdx
import Idealize.ShloMosaic.Lib.ValueLayout

noncomputable section

namespace Cert.KernelIdeal.Pieces

open Cert.KernelIdeal Cert.KernelIdeal.Gen Idealize.ShloMosaic Idealize.ShloMosaic.ValueIdx

variable {α : Type}

theorem w1a_rows0 (a5 : S202x256.Idx → α) (i : Fin 64) (k : Fin 256) :
    extractStridedSlice S64x256 ![0, 0] a5 slices_S202x256_S64x256_0_0 (ix2 i k)
      = a5 (ix2 (⟨i.val, by omega⟩ : Fin 202) k) := by
  refine extractStridedSlice_apply _ a5 _ _ _ (fun a => ?_)
  match a with
  | ⟨0, _⟩ => show i.val = 0 + i.val; omega
  | ⟨1, _⟩ => show k.val = 0 + k.val; omega
theorem w1a_rows64 (a5 : S202x256.Idx → α) (i : Fin 64) (k : Fin 256) :
    extractStridedSlice S64x256 ![64, 0] a5 slices_S202x256_S64x256_64_0 (ix2 i k)
      = a5 (ix2 (⟨64 + i.val, by omega⟩ : Fin 202) k) := by
  refine extractStridedSlice_apply _ a5 _ _ _ (fun a => ?_)
  match a with
  | ⟨0, _⟩ => show 64 + i.val = 64 + i.val; omega
  | ⟨1, _⟩ => show k.val = 0 + k.val; omega
theorem w1a_rows128 (a5 : S202x256.Idx → α) (i : Fin 64) (k : Fin 256) :
    extractStridedSlice S64x256 ![128, 0] a5 slices_S202x256_S64x256_128_0 (ix2 i k)
      = a5 (ix2 (⟨128 + i.val, by omega⟩ : Fin 202) k) := by
  refine extractStridedSlice_apply _ a5 _ _ _ (fun a => ?_)
  match a with
  | ⟨0, _⟩ => show 128 + i.val = 128 + i.val; omega
  | ⟨1, _⟩ => show k.val = 0 + k.val; omega
theorem w1a_rows192 (a5 : S202x256.Idx → α) (i : Fin 10) (k : Fin 256) :
    extractStridedSlice S10x256 ![192, 0] a5 slices_S202x256_S10x256_192_0 (ix2 i k)
      = a5 (ix2 (⟨192 + i.val, by omega⟩ : Fin 202) k) := by
  refine extractStridedSlice_apply _ a5 _ _ _ (fun a => ?_)
  match a with
  | ⟨0, _⟩ => show 192 + i.val = 192 + i.val; omega
  | ⟨1, _⟩ => show k.val = 0 + k.val; omega
theorem w2a_rows0 (a9 : S128x256.Idx → α) (i : Fin 64) (k : Fin 256) :
    extractStridedSlice S64x256 ![0, 0] a9 slices_S128x256_S64x256_0_0 (ix2 i k)
      = a9 (ix2 (⟨i.val, by omega⟩ : Fin 128) k) := by
  refine extractStridedSlice_apply _ a9 _ _ _ (fun a => ?_)
  match a with
  | ⟨0, _⟩ => show i.val = 0 + i.val; omega
  | ⟨1, _⟩ => show k.val = 0 + k.val; omega
theorem w2a_rows64 (a9 : S128x256.Idx → α) (i : Fin 64) (k : Fin 256) :
    extractStridedSlice S64x256 ![64, 0] a9 slices_S128x256_S64x256_64_0 (ix2 i k)
      = a9 (ix2 (⟨64 + i.val, by omega⟩ : Fin 128) k) := by
  refine extractStridedSlice_apply _ a9 _ _ _ (fun a => ?_)
  match a with
  | ⟨0, _⟩ => show 64 + i.val = 64 + i.val; omega
  | ⟨1, _⟩ => show k.val = 0 + k.val; omega
theorem bias_row256 (a : S256.Idx → α) (k : Fin 256) :
    shapeCast S1x256 a shapeCasts_S256_S1x256 (ix2 0 k) = a (ix1 k) := by
  refine shapeCast_apply a _ _ _ ?_
  rewrite [Shape.rowMajor_val_two, Shape.rowMajor_val_one]
  show k.val = 0 * 256 + k.val; omega
theorem bias_row64 (a : S64.Idx → α) (q : Fin 64) :
    shapeCast S1x64 a shapeCasts_S64_S1x64 (ix2 0 q) = a (ix1 q) := by
  refine shapeCast_apply a _ _ _ ?_
  rewrite [Shape.rowMajor_val_two, Shape.rowMajor_val_one]
  show q.val = 0 * 64 + q.val; omega

end Cert.KernelIdeal.Pieces

end
-- ==== Proof.Bridge.lean ====
/-
  The two programs compute one function of the arguments, at the ideal instance, where every entry of the index
  table is a node index.

  Edge result: the reference is the edge perceptron of (edge features, node features gathered at the wrapped source
  and destination indices, embedding) with the first-layer matrix's row blocks (the specification's form of its
  product with the concatenated row); the kernel program computes the same perceptron of the same arrays, except
  that its gathers replace a row whose index is out of range by a fill pattern, which under the range precondition
  never happens. Node result: both are the node perceptron of (node features, the scatter-sum of the norm-scaled
  edge result by destination), and the edge results agree.
-/
import proofs.«424888_j18013092840061_1_alg».proof.Proof.Gen.ReferenceIdeal.Read
import proofs.«424888_j18013092840061_1_alg».proof.Proof.RefValue
import proofs.«424888_j18013092840061_1_alg».proof.Proof.TakeFill
import proofs.«424888_j18013092840061_1_alg».proof.Proof.Pieces
import proofs.«424888_j18013092840061_1_alg».proof.Proof.KHost

noncomputable section

namespace Cert.Proof.Bridge

open Cert.KernelIdeal Cert.KernelIdeal.Gen Cert.KernelIdeal.KTerms Cert.KernelIdeal.HostValue Cert.KernelIdeal.TakeFill
open Idealize.ShloMosaic

variable (a0 : FVec Ideal S50000x64 .f32) (a1 : FVec Ideal S800000x64 .f32) (a2 : FVec Ideal S800000x10 .f32)
  (a3 : FVec Ideal S800000 .f32) (a4 : IVec S2x800000 32) (a5 : FVec Ideal S202x256 .f32) (a6 : FVec Ideal S256 .f32)
  (a7 : FVec Ideal S256x64 .f32) (a8 : FVec Ideal S64 .f32) (a9 : FVec Ideal S128x256 .f32) (a10 : FVec Ideal S256 .f32)
  (a11 : FVec Ideal S256x64 .f32) (a12 : FVec Ideal S64 .f32)

/-- The reference's gather at the source row is the kernel program's plain gather at the wrapped source column:
    the two programs spell the same operations. -/
theorem gather_src : Cert.ReferenceIdeal.Read.val_main_v10 (F := Ideal) a0 a4
    = Host.gather gather_S50000x64_S800000x1_S800000x64_1_0_n_n_0_1_164 a0 (wrapCol (srcRow a4)) := rfl
theorem gather_dst : Cert.ReferenceIdeal.Read.val_main_v17 (F := Ideal) a0 a4
    = Host.gather gather_S50000x64_S800000x1_S800000x64_1_0_n_n_0_1_164 a0 (wrapCol (dstRow a4)) := rfl

/-- The edge result as the kernel program computes it, over plain arrays. -/
def edgeTerm : FVec Ideal S800000x64 .f32 :=
  Cert.Spec.edgeMlp a1 (takeRows a0 (wrapCol (srcRow a4))) (takeRows a0 (wrapCol (dstRow a4))) a2
    (extractStridedSlice S64x256 ![0, 0] a5 slices_S202x256_S64x256_0_0)
    (extractStridedSlice S64x256 ![64, 0] a5 slices_S202x256_S64x256_64_0)
    (extractStridedSlice S64x256 ![128, 0] a5 slices_S202x256_S64x256_128_0)
    (extractStridedSlice S10x256 ![192, 0] a5 slices_S202x256_S10x256_192_0)
    (shapeCast S1x256 a6 shapeCasts_S256_S1x256) a7 (shapeCast S1x64 a8 shapeCasts_S64_S1x64)

/-- The reference's edge result is the kernel program's, every index in range. -/
theorem edge_eq (hrange : ∀ i : S2x800000.Idx, InNodeRange (a4 i)) :
    Cert.ReferenceIdeal.Read.val_main_v28 (F := Ideal) a0 a1 a2 a4 a5 a6 a7 a8 = edgeTerm a0 a1 a2 a4 a5 a6 a7 a8 := by
  rw [Cert.ReferenceIdeal.RefValue.he_new_eq a0 a1 a2 a4 a5 a6 a7 a8
    (extractStridedSlice S64x256 ![0, 0] a5 slices_S202x256_S64x256_0_0)
    (extractStridedSlice S64x256 ![64, 0] a5 slices_S202x256_S64x256_64_0)
    (extractStridedSlice S64x256 ![128, 0] a5 slices_S202x256_S64x256_128_0)
    (extractStridedSlice S10x256 ![192, 0] a5 slices_S202x256_S10x256_192_0)
    (shapeCast S1x256 a6 shapeCasts_S256_S1x256) (shapeCast S1x64 a8 shapeCasts_S64_S1x64)
    (Cert.KernelIdeal.Pieces.w1a_rows0 a5) (Cert.KernelIdeal.Pieces.w1a_rows64 a5)
    (Cert.KernelIdeal.Pieces.w1a_rows128 a5) (Cert.KernelIdeal.Pieces.w1a_rows192 a5)
    (Cert.KernelIdeal.Pieces.bias_row256 a6) (Cert.KernelIdeal.Pieces.bias_row64 a8),
    gather_src, gather_dst,
    ← takeRows_eq_gather a0 (srcRow a4) (srcRow_range a4 hrange),
    ← takeRows_eq_gather a0 (dstRow a4) (dstRow_range a4 hrange)]
  rfl

/-- The reference's scatter-sum is the kernel program's, of the reference's edge result. -/
theorem scatter_eq : Cert.ReferenceIdeal.Read.val_main_v34 (F := Ideal) a0 a1 a2 a3 a4 a5 a6 a7 a8
    = scatterSum (dstRow a4) (Cert.ReferenceIdeal.Read.val_main_v28 (F := Ideal) a0 a1 a2 a4 a5 a6 a7 a8) a3 := rfl

/-- The node result as the kernel program computes it, over plain arrays. -/
def nodeTerm : FVec Ideal S50000x64 .f32 :=
  Cert.Spec.nodeMlp a0 (scatterSum (dstRow a4) (edgeTerm a0 a1 a2 a4 a5 a6 a7 a8) a3)
    (extractStridedSlice S64x256 ![0, 0] a9 slices_S128x256_S64x256_0_0)
    (extractStridedSlice S64x256 ![64, 0] a9 slices_S128x256_S64x256_64_0)
    (shapeCast S1x256 a10 shapeCasts_S256_S1x256) a11 (shapeCast S1x64 a12 shapeCasts_S64_S1x64)

/-- The reference's node result is the kernel program's, every index in range. -/
theorem node_eq (hrange : ∀ i : S2x800000.Idx, InNodeRange (a4 i)) :
    Cert.ReferenceIdeal.Read.val_main_v45 (F := Ideal) a0 a1 a2 a3 a4 a5 a6 a7 a8 a9 a10 a11 a12
      = nodeTerm a0 a1 a2 a3 a4 a5 a6 a7 a8 a9 a10 a11 a12 := by
  rw [Cert.ReferenceIdeal.RefValue.hn_new_eq a0 a1 a2 a3 a4 a5 a6 a7 a8 a9 a10 a11 a12
    (extractStridedSlice S64x256 ![0, 0] a9 slices_S128x256_S64x256_0_0)
    (extractStridedSlice S64x256 ![64, 0] a9 slices_S128x256_S64x256_64_0)
    (shapeCast S1x256 a10 shapeCasts_S256_S1x256) (shapeCast S1x64 a12 shapeCasts_S64_S1x64)
    (Cert.KernelIdeal.Pieces.w2a_rows0 a9) (Cert.KernelIdeal.Pieces.w2a_rows64 a9)
    (Cert.KernelIdeal.Pieces.bias_row256 a10) (Cert.KernelIdeal.Pieces.bias_row64 a12),
    scatter_eq, edge_eq a0 a1 a2 a4 a5 a6 a7 a8 hrange]
  rfl

end Cert.Proof.Bridge

end
-- ==== Proof.lean ====
/-
  The certificate of the message-passing kernel against its reference: the five claims.

  The kernel program is two row-blocked perceptron kernels around host gathers and a host scatter-sum; the
  reference is the same computation written with concatenations and whole-array matrix products. Over the
  extended reals a row of `[x₀ | x₁ | x₂ | x₃] · W` is `x₀ · W₀ + x₁ · W₁ + x₂ · W₂ + x₃ · W₃` for the row blocks
  `Wₚ` of `W` (only commutativity and associativity of addition are used, so no finiteness is needed), a
  product computed block of rows by block of rows is the product of the whole arrays, and the two orders in which
  the residual and the last bias are added agree. The one place the programs differ is an index outside
  `[0, 50000)`: the kernel program's gather then fills the row while the reference's clamps; the precondition's
  range conjunct on the index table excludes it, and under it the filling gather is the plain one.

  The three frames are the generated ones (the reference's from its generated run); nothing was rewritten by the
  idealization, so its claim is trivial; the value claim puts the kernel program's run, with its two result arrays
  read as terms of the launch memory, beside the reference's generated run, and identifies the terms.
-/
import proofs.«424888_j18013092840061_1_alg».proof.Defs
import proofs.«424888_j18013092840061_1_alg».proof.Proof.Gen.Kernel
import proofs.«424888_j18013092840061_1_alg».proof.Proof.Gen.Kernel.Frame
import proofs.«424888_j18013092840061_1_alg».proof.Proof.Gen.KernelIdeal
import proofs.«424888_j18013092840061_1_alg».proof.Proof.Gen.KernelIdeal.Frame
import proofs.«424888_j18013092840061_1_alg».proof.Proof.Gen.ReferenceIdeal
import proofs.«424888_j18013092840061_1_alg».proof.Proof.Gen.ReferenceIdeal.Run
import proofs.«424888_j18013092840061_1_alg».proof.Proof.Gen.ReferenceIdeal.Read
import proofs.«424888_j18013092840061_1_alg».proof.Proof.Gen.Pre_finite_inputs
import proofs.«424888_j18013092840061_1_alg».proof.Proof.KRun
import proofs.«424888_j18013092840061_1_alg».proof.Proof.KValue
import proofs.«424888_j18013092840061_1_alg».proof.Proof.Bridge
import Idealize.ShloMosaic.Adequacy
import Idealize.ShloMosaic.Init

noncomputable section

namespace Cert.Proof

open Idealize.ShloMosaic Idealize.SL.Sem

/-- The word-level kernel program terminates without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments and satisfy the precondition, both idealized programs end with the
    node result and the edge result of the specification's two perceptrons. -/
theorem algebraic : Cert.algebraic_KernelIdeal_ReferenceIdeal := by
  intro m ρ m' ρ' hpre hagree
  refine ⟨fun c => Cert.KernelIdeal.KValue.hnNew m ρ c, fun c => Cert.KernelIdeal.KValue.heNew m ρ c, ?_, ?_⟩
  · refine (θ_run Cert.KernelIdeal.defs _ _).mono (fun r h c => ?_)
      (Cert.KernelIdeal.ValueRun.run_results (F := Ideal) m ρ)
    exact ⟨(h c).1.trans (Cert.KernelIdeal.KValue.hn_new m ρ c),
      (h c).2.1.trans (Cert.KernelIdeal.KValue.he_new m ρ c), (h c).2.2⟩
  · refine (θ_run Cert.ReferenceIdeal.defs _ _).mono (fun r h c => ?_)
      (Cert.ReferenceIdeal.Value.run (F := Ideal) m' ρ')
    have hrange := Cert.KernelIdeal.TakeFill.range_of_pre _ _ _ _ _ _ _ _ _ _ _ _ _ (hpre c)
    obtain ⟨e0, e1, e2, e3, e4, e5, e6, e7, e8, e9, e10, e11, e12⟩ := hagree c
    refine ⟨(h c).1.trans ?_, (h c).2.1.trans ?_, (h c).2.2⟩
    · refine (Cert.ReferenceIdeal.Read.val_main_v45_eq _ _ _ _ _ _ _ _ _ _ _ _ _).trans ?_
      rw [e0, e1, e2, e3, e4, e5, e6, e7, e8, e9, e10, e11, e12]
      exact Cert.Proof.Bridge.node_eq _ _ _ _ _ _ _ _ _ _ _ _ _ hrange
    · refine (Cert.ReferenceIdeal.Read.val_main_v28_eq _ _ _ _ _ _ _ _).trans ?_
      rw [e0, e1, e2, e4, e5, e6, e7, e8]
      exact Cert.Proof.Bridge.edge_eq _ _ _ _ _ _ _ _ hrange

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
